-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x40 : S_.BroadcastsInDim S16x40 (![] : Fin 0 → Fin S16x40.rank)
  reducesTo_S16x40_S_d0_1 : S16x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S16x40 1) : IVec S_ 1 :=
  let main_c_5 : IVec S_ 1 := constantI S_ 1 1#1
  let main_v17 : IVec S_ 1 := (fun x v => Host.reduce IntOp.andi x v reducesTo_S16x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x512 .f32) (main_arg1 : IVec S2x3200000 32) (main_arg2 : FVec F S512x16 .f32) (main_arg3 : FVec F S16 .f32) (main_arg4 : FVec F S16x40 .f32) (main_arg5 : FVec F S40 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg2
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x40 .f32 := Host.absf main_arg4
  let main_cst_4 : FVec F S_ .f32 := constant S_ .f32 0x7F800000#32
  let main_v15 : FVec F S16x40 .f32 := broadcastInDim S16x40 ![] bcast_S_S16x40 main_cst_4
  let main_v16 : IVec S16x40 1 := cmpf .olt main_v14 main_v15
  fn_part1 (F := F) main_arg5 main_v13 main_v16
-- ==== Kernel.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S2000x512 : Shape := ⟨2, ![2000, 512]⟩
abbrev S2000x16 : Shape := ⟨2, ![2000, 16]⟩
abbrev S3300000x16 : Shape := ⟨2, ![3300000, 16]⟩
abbrev S1x16 : Shape := ⟨2, ![1, 16]⟩
abbrev S100000x40 : Shape := ⟨2, ![100000, 40]⟩
abbrev S2000x40 : Shape := ⟨2, ![2000, 40]⟩
abbrev S3300000x40 : Shape := ⟨2, ![3300000, 40]⟩
abbrev S1x40 : Shape := ⟨2, ![1, 40]⟩
abbrev S2000 : Shape := ⟨1, ![2000]⟩
abbrev S2000x1 : Shape := ⟨2, ![2000, 1]⟩

abbrev nBuf : Space → Nat
  | .hbm => 83
  | .vmem => 20
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x40, .f32⟩
  | .hbm, ⟨5, _⟩ => ⟨S40, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S100000, .i32⟩
  | .hbm, ⟨11, _⟩ => ⟨S3300000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S3300000, .i32⟩
  | .hbm, ⟨28, _⟩ => ⟨S3300000, .i1⟩
  | .hbm, ⟨29, _⟩ => ⟨S_, .i32⟩
  | .hbm, ⟨30, _⟩ => ⟨S3300000, .i32⟩
  | .hbm, ⟨31, _⟩ => ⟨S3300000, .i32⟩
  | .hbm, ⟨32, _⟩ => ⟨S3300000, .i32⟩
  | .hbm, ⟨33, _⟩ => ⟨S3300000x1, .i32⟩
  | .hbm, ⟨34, _⟩ => ⟨S3300000, .f32⟩
  | .hbm, ⟨35, _⟩ => ⟨S_, .i32⟩
  | .hbm, ⟨36, _⟩ => ⟨S3300000, .i32⟩
  | .hbm, ⟨37, _⟩ => ⟨S3300000, .i1⟩
  | .hbm, ⟨38, _⟩ => ⟨S_, .i32⟩
  | .hbm, ⟨39, _⟩ => ⟨S3300000, .i32⟩
  | .hbm, ⟨40, _⟩ => ⟨S3300000, .i32⟩
  | .hbm, ⟨41, _⟩ => ⟨S3300000, .i32⟩
  | .hbm, ⟨42, _⟩ => ⟨S3300000x1, .i32⟩
  | .hbm, ⟨43, _⟩ => ⟨S3300000, .f32⟩
  | .hbm, ⟨44, _⟩ => ⟨S3300000, .f32⟩
  | .hbm, ⟨45, _⟩ => ⟨S100000x16, .f32⟩
  | .hbm, ⟨46, _⟩ => ⟨S_, .i32⟩
  | .hbm, ⟨47, _⟩ => ⟨S3300000, .i32⟩
  | .hbm, ⟨48, _⟩ => ⟨S3300000, .i1⟩
  | .hbm, ⟨49, _⟩ => ⟨S_, .i32⟩
  | .hbm, ⟨50, _⟩ => ⟨S3300000, .i32⟩
  | .hbm, ⟨51, _⟩ => ⟨S3300000, .i32⟩
  | .hbm, ⟨52, _⟩ => ⟨S3300000, .i32⟩
  | .hbm, ⟨53, _⟩ => ⟨S3300000x1, .i32⟩
  | .hbm, ⟨54, _⟩ => ⟨S3300000x16, .f32⟩
  | .hbm, ⟨55, _⟩ => ⟨S3300000x1, .f32⟩
  | .hbm, ⟨56, _⟩ => ⟨S3300000x16, .f32⟩
  | .hbm, ⟨57, _⟩ => ⟨S3300000x16, .f32⟩
  | .hbm, ⟨58, _⟩ => ⟨S_, .f32⟩
  | .hbm, ⟨59, _⟩ => ⟨S100000x16, .f32⟩
  | .hbm, ⟨60, _⟩ => ⟨S3300000x1, .i32⟩
  | .hbm, ⟨61, _⟩ => ⟨S100000x16, .f32⟩
  | .hbm, ⟨62, _⟩ => ⟨S1x16, .f32⟩
  | .hbm, ⟨63, _⟩ => ⟨S100000x16, .f32⟩
  | .hbm, ⟨64, _⟩ => ⟨S100000x40, .f32⟩
  | .hbm, ⟨65, _⟩ => ⟨S_, .i32⟩
  | .hbm, ⟨66, _⟩ => ⟨S3300000, .i32⟩
  | .hbm, ⟨67, _⟩ => ⟨S3300000, .i1⟩
  | .hbm, ⟨68, _⟩ => ⟨S_, .i32⟩
  | .hbm, ⟨69, _⟩ => ⟨S3300000, .i32⟩
  | .hbm, ⟨70, _⟩ => ⟨S3300000, .i32⟩
  | .hbm, ⟨71, _⟩ => ⟨S3300000, .i32⟩
  | .hbm, ⟨72, _⟩ => ⟨S3300000x1, .i32⟩
  | .hbm, ⟨73, _⟩ => ⟨S3300000x40, .f32⟩
  | .hbm, ⟨74, _⟩ => ⟨S3300000x1, .f32⟩
  | .hbm, ⟨75, _⟩ => ⟨S3300000x40, .f32⟩
  | .hbm, ⟨76, _⟩ => ⟨S3300000x40, .f32⟩
  | .hbm, ⟨77, _⟩ => ⟨S_, .f32⟩
  | .hbm, ⟨78, _⟩ => ⟨S100000x40, .f32⟩
  | .hbm, ⟨79, _⟩ => ⟨S3300000x1, .i32⟩
  | .hbm, ⟨80, _⟩ => ⟨S100000x40, .f32⟩
  | .hbm, ⟨81, _⟩ => ⟨S1x40, .f32⟩
  | .hbm, ⟨82, _⟩ => ⟨S100000x40, .f32⟩
  | .local _ .vmem, ⟨0, _⟩ => ⟨S2000x512, .f32⟩
  | .local _ .vmem, ⟨1, _⟩ => ⟨S2000x512, .f32⟩
  | .local _ .vmem, ⟨2, _⟩ => ⟨S512x16, .f32⟩
  | .local _ .vmem, ⟨3, _⟩ => ⟨S2000x16, .f32⟩
  | .local _ .vmem, ⟨4, _⟩ => ⟨S2000x16, .f32⟩
  | .local _ .vmem, ⟨5, _⟩ => ⟨S2000x16, .f32⟩
  | .local _ .vmem, ⟨6, _⟩ => ⟨S2000x16, .f32⟩
  | .local _ .vmem, ⟨7, _⟩ => ⟨S1x16, .f32⟩
  | .local _ .vmem, ⟨8, _⟩ => ⟨S2000x16, .f32⟩
  | .local _ .vmem, ⟨9, _⟩ => ⟨S2000x16, .f32⟩
  | .local _ .vmem, ⟨10, _⟩ => ⟨S2000x16, .f32⟩
  | .local _ .vmem, ⟨11, _⟩ => ⟨S2000x16, .f32⟩
  | .local _ .vmem, ⟨12, _⟩ => ⟨S16x40, .f32⟩
  | .local _ .vmem, ⟨13, _⟩ => ⟨S2000x40, .f32⟩
  | .local _ .vmem, ⟨14, _⟩ => ⟨S2000x40, .f32⟩
  | .local _ .vmem, ⟨15, _⟩ => ⟨S2000x40, .f32⟩
  | .local _ .vmem, ⟨16, _⟩ => ⟨S2000x40, .f32⟩
  | .local _ .vmem, ⟨17, _⟩ => ⟨S1x40, .f32⟩
  | .local _ .vmem, ⟨18, _⟩ => ⟨S2000x40, .f32⟩
  | .local _ .vmem, ⟨19, _⟩ => ⟨S2000x40, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_c_9 : Ref sig .tc := ⟨.hbm, 65, rfl⟩
abbrev main_v48 : Ref sig .tc := ⟨.hbm, 66, rfl⟩
abbrev main_v49 : Ref sig .tc := ⟨.hbm, 67, rfl⟩
abbrev main_c_10 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_11 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S2000x512_S2000x512_0_0 : ∀ a, (![0, 0] : Fin 2 → Nat) a + S2000x512.size a ≤ S2000x512.size a
  h_S2000x512 : 0 < S2000x512.numel
  inb_S512x16_S512x16_0_0 : ∀ a, (![0, 0] : Fin 2 → Nat) a + S512x16.size a ≤ S512x16.size a
  h_S512x16 : 0 < S512x16.numel
  inb_S2000x16_S2000x16_0_0 : ∀ a, (![0, 0] : Fin 2 → Nat) a + S2000x16.size a ≤ S2000x16.size a
  h_S2000x16 : 0 < S2000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  shapeCasts_S2000x16_S2000x16 : S2000x16.ShapeCasts S2000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  inb_S16x40_S16x40_0_0 : ∀ a, (![0, 0] : Fin 2 → Nat) a + S16x40.size a ≤ S16x40.size a
  h_S16x40 : 0 < S16x40.numel
  inb_S2000x40_S2000x40_0_0 : ∀ a, (![0, 0] : Fin 2 → Nat) a + S2000x40.size a ≤ S2000x40.size a
  h_S2000x40 : 0 < S2000x40.numel
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  shapeCasts_S40_S1x40 : S40.ShapeCasts S1x40
  shapeCasts_S2000x40_S2000x40 : S2000x40.ShapeCasts S2000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  reduces_S2000x40_S2000 : S2000x40.Reduces [1] S2000
  shapeCasts_S2000_S2000x1 : S2000.ShapeCasts S2000x1
  broadcasts_S2000x1_S2000x40 : S2000x1.Broadcasts S2000x40
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S2000x512_S512x16_S2000x16_1_0_0_1_n_n_wf : DotDims.WF S2000x512 S512x16 S2000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S2000x16_S16x40_S2000x40_1_0_0_1_n_n_wf : DotDims.WF S2000x16 S16x40 S2000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x16.size a ≤ S100000x16.size a
  hwx0_2 : ∀ i : grid0.Coords, EltTy.bits .f32 = 32 ∨ (Rect.block (s := S100000x16) S2000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x16.size a ≤ S100000x16.size a
  hwx1_0 : ∀ i : grid1.Coords, EltTy.bits .f32 = 32 ∨ (Rect.block (s := S100000x16) S2000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x16.size a ≤ S100000x16.size a
  hwx1_2 : ∀ i : grid1.Coords, EltTy.bits .f32 = 32 ∨ (Rect.block (s := S100000x16) S2000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x16.size a ≤ S100000x16.size a
  hwx2_0 : ∀ i : grid2.Coords, EltTy.bits .f32 = 32 ∨ (Rect.block (s := S100000x16) S2000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x40.size a ≤ S16x40.size a
  hwx2_1 : ∀ i : grid2.Coords, EltTy.bits .f32 = 32 ∨ (Rect.block (s := S16x40) S16x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x40.size a ≤ S100000x40.size a
  hwx2_2 : ∀ i : grid2.Coords, EltTy.bits .f32 = 32 ∨ (Rect.block (s := S100000x40) S2000x40.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x40.size a ≤ S100000x40.size a
  hwx3_0 : ∀ i : grid3.Coords, EltTy.bits .f32 = 32 ∨ (Rect.block (s := S100000x40) S2000x40.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x40.size a ≤ S1x40.size a
  hwx3_1 : ∀ i : grid3.Coords, EltTy.bits .f32 = 32 ∨ (Rect.block (s := S1x40) S1x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x40.size a ≤ S100000x40.size a
  hwx3_2 : ∀ i : grid3.Coords, EltTy.bits .f32 = 32 ∨ (Rect.block (s := S100000x40) S2000x40.size (cc3_transform_2 i) (hinb3_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S2000x512_S512x16_S2000x16_1_0_0_1_n_n : DotDims S2000x512 S512x16 S2000x16 where
  lhsContracting := [1]
  rhsContracting := [0]
  lhsNonContracting := [0]
  rhsNonContracting := [1]
  lhsBatch := []
  rhsBatch := []
  wf := dot_S2000x512_S512x16_S2000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S2000x16_S16x40_S2000x40_1_0_0_1_n_n : DotDims S2000x16 S16x40 S2000x40 where
  lhsContracting := [1]
  rhsContracting := [0]
  lhsNonContracting := [0]
  rhsNonContracting := [1]
  lhsBatch := []
  rhsBatch := []
  wf := dot_S2000x16_S16x40_S2000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S2000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S2000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S2000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S2000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S16x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S2000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v60) S2000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v61) S1x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v62) S2000x40.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x40 : Shape := ⟨2, ![100000, 40]⟩
abbrev S3300000x40 : Shape := ⟨2, ![3300000, 40]⟩
abbrev S1x40 : Shape := ⟨2, ![1, 40]⟩
abbrev S100000x1 : Shape := ⟨2, ![100000, 1]⟩

abbrev nBuf : Space → Nat
  | .hbm => 138
  | .vmem => 0
  | .smem => 0
  | _ => 0

abbrev hbmTy0_0 (i : Nat) : BufTy := match i % 128 with
  | 0 => ⟨S100000x512, .f32⟩
  | 1 => ⟨S2x3200000, .i32⟩
  | 2 => ⟨S512x16, .f32⟩
  | 3 => ⟨S16, .f32⟩
  | 4 => ⟨S16x40, .f32⟩
  | 5 => ⟨S40, .f32⟩
  | 6 => ⟨S1x3200000, .i32⟩
  | 7 => ⟨S3200000, .i32⟩
  | 8 => ⟨S1x3200000, .i32⟩
  | 9 => ⟨S3200000, .i32⟩
  | 10 => ⟨S100000, .i32⟩
  | 11 => ⟨S3300000, .i32⟩
  | 12 => ⟨S3300000, .i32⟩
  | 13 => ⟨S_, .f32⟩
  | 14 => ⟨S3300000, .f32⟩
  | 15 => ⟨S_, .f32⟩
  | 16 => ⟨S100000, .f32⟩
  | 17 => ⟨S3300000x1, .i32⟩
  | 18 => ⟨S100000, .f32⟩
  | 19 => ⟨S_, .f32⟩
  | 20 => ⟨S100000, .f32⟩
  | 21 => ⟨S100000, .i1⟩
  | 22 => ⟨S100000, .f32⟩
  | 23 => ⟨S_, .f32⟩
  | 24 => ⟨S100000, .f32⟩
  | 25 => ⟨S100000, .f32⟩
  | 26 => ⟨S_, .i32⟩
  | 27 => ⟨S3300000, .i32⟩
  | 28 => ⟨S3300000, .i1⟩
  | 29 => ⟨S_, .i32⟩
  | 30 => ⟨S3300000, .i32⟩
  | 31 => ⟨S3300000, .i32⟩
  | 32 => ⟨S3300000, .i32⟩
  | 33 => ⟨S3300000x1, .i32⟩
  | 34 => ⟨S3300000, .f32⟩
  | 35 => ⟨S_, .i32⟩
  | 36 => ⟨S3300000, .i32⟩
  | 37 => ⟨S3300000, .i1⟩
  | 38 => ⟨S_, .i32⟩
  | 39 => ⟨S3300000, .i32⟩
  | 40 => ⟨S3300000, .i32⟩
  | 41 => ⟨S3300000, .i32⟩
  | 42 => ⟨S3300000x1, .i32⟩
  | 43 => ⟨S3300000, .f32⟩
  | 44 => ⟨S3300000, .f32⟩
  | 45 => ⟨S100000x16, .f32⟩
  | 46 => ⟨S_, .i32⟩
  | 47 => ⟨S3300000, .i32⟩
  | 48 => ⟨S3300000, .i1⟩
  | 49 => ⟨S_, .i32⟩
  | 50 => ⟨S3300000, .i32⟩
  | 51 => ⟨S3300000, .i32⟩
  | 52 => ⟨S3300000, .i32⟩
  | 53 => ⟨S3300000x1, .i32⟩
  | 54 => ⟨S3300000x16, .f32⟩
  | 55 => ⟨S3300000x1, .f32⟩
  | 56 => ⟨S3300000x16, .f32⟩
  | 57 => ⟨S3300000x16, .f32⟩
  | 58 => ⟨S_, .f32⟩
  | 59 => ⟨S100000x16, .f32⟩
  | 60 => ⟨S3300000x1, .i32⟩
  | 61 => ⟨S100000x16, .f32⟩
  | 62 => ⟨S1x16, .f32⟩
  | 63 => ⟨S100000x16, .f32⟩
  | 64 => ⟨S100000x16, .f32⟩
  | 65 => ⟨S_, .f32⟩
  | 66 => ⟨S100000x16, .f32⟩
  | 67 => ⟨S100000x16, .f32⟩
  | 68 => ⟨S100000, .i32⟩
  | 69 => ⟨S3300000, .i32⟩
  | 70 => ⟨S3300000, .i32⟩
  | 71 => ⟨S_, .f32⟩
  | 72 => ⟨S3300000, .f32⟩
  | 73 => ⟨S_, .f32⟩
  | 74 => ⟨S100000, .f32⟩
  | 75 => ⟨S3300000x1, .i32⟩
  | 76 => ⟨S100000, .f32⟩
  | 77 => ⟨S_, .f32⟩
  | 78 => ⟨S100000, .f32⟩
  | 79 => ⟨S100000, .i1⟩
  | 80 => ⟨S100000, .f32⟩
  | 81 => ⟨S_, .f32⟩
  | 82 => ⟨S100000, .f32⟩
  | 83 => ⟨S100000, .f32⟩
  | 84 => ⟨S_, .i32⟩
  | 85 => ⟨S3300000, .i32⟩
  | 86 => ⟨S3300000, .i1⟩
  | 87 => ⟨S_, .i32⟩
  | 88 => ⟨S3300000, .i32⟩
  | 89 => ⟨S3300000, .i32⟩
  | 90 => ⟨S3300000, .i32⟩
  | 91 => ⟨S3300000x1, .i32⟩
  | 92 => ⟨S3300000, .f32⟩
  | 93 => ⟨S_, .i32⟩
  | 94 => ⟨S3300000, .i32⟩
  | 95 => ⟨S3300000, .i1⟩
  | 96 => ⟨S_, .i32⟩
  | 97 => ⟨S3300000, .i32⟩
  | 98 => ⟨S3300000, .i32⟩
  | 99 => ⟨S3300000, .i32⟩
  | 100 => ⟨S3300000x1, .i32⟩
  | 101 => ⟨S3300000, .f32⟩
  | 102 => ⟨S3300000, .f32⟩
  | 103 => ⟨S100000x40, .f32⟩
  | 104 => ⟨S_, .i32⟩
  | 105 => ⟨S3300000, .i32⟩
  | 106 => ⟨S3300000, .i1⟩
  | 107 => ⟨S_, .i32⟩
  | 108 => ⟨S3300000, .i32⟩
  | 109 => ⟨S3300000, .i32⟩
  | 110 => ⟨S3300000, .i32⟩
  | 111 => ⟨S3300000x1, .i32⟩
  | 112 => ⟨S3300000x40, .f32⟩
  | 113 => ⟨S3300000x1, .f32⟩
  | 114 => ⟨S3300000x40, .f32⟩
  | 115 => ⟨S3300000x40, .f32⟩
  | 116 => ⟨S_, .f32⟩
  | 117 => ⟨S100000x40, .f32⟩
  | 118 => ⟨S3300000x1, .i32⟩
  | 119 => ⟨S100000x40, .f32⟩
  | 120 => ⟨S1x40, .f32⟩
  | 121 => ⟨S100000x40, .f32⟩
  | 122 => ⟨S100000x40, .f32⟩
  | 123 => ⟨S_, .f32⟩
  | 124 => ⟨S100000, .f32⟩
  | 125 => ⟨S_, .f32⟩
  | 126 => ⟨S100000, .f32⟩
  | 127 => ⟨S100000, .f32⟩
  | _ => ⟨S100000x512, .f32⟩

abbrev hbmTy0_1 (i : Nat) : BufTy := match i % 128 with
  | 0 => ⟨S100000x1, .f32⟩
  | 1 => ⟨S100000x40, .f32⟩
  | 2 => ⟨S100000x40, .f32⟩
  | 3 => ⟨S100000x40, .f32⟩
  | 4 => ⟨S_, .f32⟩
  | 5 => ⟨S100000, .f32⟩
  | 6 => ⟨S100000x1, .f32⟩
  | 7 => ⟨S100000x1, .f32⟩
  | 8 => ⟨S100000x40, .f32⟩
  | 9 => ⟨S100000x40, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_call1_cst : Ref sig .tc := ⟨.hbm, 65, rfl⟩
abbrev main_call1_v0 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_9 : Ref sig .tc := ⟨.hbm, 71, rfl⟩
abbrev main_v52 : Ref sig .tc := ⟨.hbm, 72, rfl⟩
abbrev main_cst_10 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_12 : Ref sig .tc := ⟨.hbm, 81, rfl⟩
abbrev main_v59 : Ref sig .tc := ⟨.hbm, 82, rfl⟩
abbrev main_v60 : Ref sig .tc := ⟨.hbm, 83, rfl⟩
abbrev main_c_13 : Ref sig .tc := ⟨.hbm, 84, rfl⟩
abbrev main_v61 : Ref sig .tc := ⟨.hbm, 85, rfl⟩
abbrev main_v62 : Ref sig .tc := ⟨.hbm, 86, rfl⟩
abbrev main_c_14 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_c_15 : Ref sig .tc := ⟨.hbm, 93, rfl⟩
abbrev main_v68 : Ref sig .tc := ⟨.hbm, 94, rfl⟩
abbrev main_v69 : Ref sig .tc := ⟨.hbm, 95, rfl⟩
abbrev main_c_16 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_c_17 : Ref sig .tc := ⟨.hbm, 104, rfl⟩
abbrev main_v77 : Ref sig .tc := ⟨.hbm, 105, rfl⟩
abbrev main_v78 : Ref sig .tc := ⟨.hbm, 106, rfl⟩
abbrev main_c_18 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_cst_19 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_call3_cst : Ref sig .tc := ⟨.hbm, 123, rfl⟩
abbrev main_call3_v0 : Ref sig .tc := ⟨.hbm, 124, rfl⟩
abbrev main_call3_cst_0 : Ref sig .tc := ⟨.hbm, 125, rfl⟩
abbrev main_call3_v1 : Ref sig .tc := ⟨.hbm, 126, rfl⟩
abbrev main_call3_v2 : Ref sig .tc := ⟨.hbm, 127, rfl⟩
abbrev main_call3_v3 : Ref sig .tc := ⟨.hbm, 128, rfl⟩
abbrev main_call3_v4 : Ref sig .tc := ⟨.hbm, 129, rfl⟩
abbrev main_call3_v5 : Ref sig .tc := ⟨.hbm, 130, rfl⟩
abbrev main_call3_v6 : Ref sig .tc := ⟨.hbm, 131, rfl⟩
abbrev main_call3_cst_1 : Ref sig .tc := ⟨.hbm, 132, rfl⟩
abbrev main_call3_v7 : Ref sig .tc := ⟨.hbm, 133, rfl⟩
abbrev main_call3_v8 : Ref sig .tc := ⟨.hbm, 134, rfl⟩
abbrev main_call3_v9 : Ref sig .tc := ⟨.hbm, 135, rfl⟩
abbrev main_call3_v10 : Ref sig .tc := ⟨.hbm, 136, rfl⟩
abbrev main_v93 : Ref sig .tc := ⟨.hbm, 137, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x512_S512x16_S100000x16_1_0_0_1_n_n_wf : DotDims.WF S100000x512 S512x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x40_S100000x40_1_0_0_1_n_n_wf : DotDims.WF S100000x16 S16x40 S100000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x40_S100000x40_1_0_0_1_n_n : DotDims S100000x16 S16x40 S100000x40 where
  lhsContracting := [1]
  rhsContracting := [0]
  lhsNonContracting := [0]
  rhsNonContracting := [1]
  lhsBatch := []
  rhsBatch := []
  wf := dot_S100000x16_S16x40_S100000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

class Facts : Prop extends Facts₀ where

variable [Facts]
-- ==== Proof.Spec.lean ====
/-
  A two-layer graph convolution, as whole-array functions of its inputs.

  The graph is given by an edge list (row 0 the sources, row 1 the destinations); every node gets a self-loop, so the
  edge list is extended by the identity on the nodes. With `deg` the number of extended edges arriving at a node and
  `dinv = deg^(-1/2)` where `deg > 0` (else 0), an edge `e` weighs `norm e = dinv (src e) · dinv (dst e)`, and one
  propagation step sends a node-feature array `h` to `agg h`, whose row `d` is the sum over the extended edges arriving at
  `d` of `norm e · h (src e)`. The network is
    `log_softmax (agg (relu (agg (x · W1) + b1) · W2) + b2)`,
  the log-softmax along each row, taken as `z - max z - log (Σ exp (z - max z))`.
  Each piece below is spelt with the host's own array operations, so that the pieces composed are literally the
  term the host program computes.
-/
import proofs.«139665_j74002286510429_1_alg».proof.Proof.Gen.ReferenceIdeal
import Idealize.ShloMosaic.PureOps.Ideal

noncomputable section

namespace Cert.Gcn

open Idealize.ShloMosaic Cert.ReferenceIdeal Cert.ReferenceIdeal.Gen

variable {F : FTy → Type} [FloatOps F]

/-- Row 0 of the edge list (the sources) and row 1 (the destinations), each as a flat list. -/
def row0 (ei : Vec F S2x3200000 .i32) : Vec F S3200000 .i32 :=
  shapeCast _ (extractStridedSlice S1x3200000 ![0, 0] ei slices_S2x3200000_S1x3200000_0_0) shapeCasts_S1x3200000_S3200000
def row1 (ei : Vec F S2x3200000 .i32) : Vec F S3200000 .i32 :=
  shapeCast _ (extractStridedSlice S1x3200000 ![1, 0] ei slices_S2x3200000_S1x3200000_1_0) shapeCasts_S1x3200000_S3200000

/-- A list of edge ends extended by the self-loops: the list, then every node. -/
def withLoops (a : Vec F S3200000 .i32) : Vec F S3300000 .i32 :=
  concatenate S3300000 0 [⟨S3200000, a⟩, ⟨S100000, (iotaInDim S100000 32 0)⟩] concatenates_S3200000_S100000_S3300000_d0

/-- The sources and the destinations of the extended edge list. -/
def srcs (ei : Vec F S2x3200000 .i32) : Vec F S3300000 .i32 := withLoops (row0 ei)
def dsts (ei : Vec F S2x3200000 .i32) : Vec F S3300000 .i32 := withLoops (row1 ei)

/-- A node index as a row index for reading: a negative index counts from the end. -/
def wrap (s : Vec F S3300000 .i32) : Vec F S3300000 .i32 :=
  select (cmpi .slt s (broadcastInDim S3300000 ![] bcast_S_S3300000 (constantI S_ 32 0#32))) (addi s (broadcastInDim S3300000 ![] bcast_S_S3300000 (constantI S_ 32 100000#32))) s

/-- How many extended edges arrive at each node, from the destinations `d`. -/
def degOf (d : Vec F S3300000 .i32) : Vec F S100000 .f32 :=
  Host.scatterAdd scatter_S100000_S3300000x1_S3300000_n_0_0_1 (broadcastInDim S100000 ![] bcast_S_S100000 (constant S_ .f32 0x00000000#32)) (broadcastInDim S3300000x1 ![0] bcast_S3300000_S3300000x1_0 d) (broadcastInDim S3300000 ![] bcast_S_S3300000 (constant S_ .f32 0x3F800000#32))

/-- `deg^(-1/2)` where the degree is positive, else 0. -/
def dinvOf (d : Vec F S3300000 .i32) : Vec F S100000 .f32 :=
  select (cmpf (F := F) .ogt (degOf d) (broadcastInDim S100000 ![] bcast_S_S100000 (constant S_ .f32 0x00000000#32))) (Host.rsqrt (degOf d)) (broadcastInDim S100000 ![] bcast_S_S100000 (constant S_ .f32 0x00000000#32))

/-- The weight of each extended edge, from the sources `s` and the destinations `d`. -/
def normOf (s d : Vec F S3300000 .i32) : Vec F S3300000 .f32 :=
  mulf (Host.gather gather_S100000_S3300000x1_S3300000_n_0_n_n_0_1_1 (dinvOf d) (broadcastInDim S3300000x1 ![0] bcast_S3300000_S3300000x1_0 (wrap s))) (Host.gather gather_S100000_S3300000x1_S3300000_n_0_n_n_0_1_1 (dinvOf d) (broadcastInDim S3300000x1 ![0] bcast_S3300000_S3300000x1_0 (wrap d)))

/-- The weight of each extended edge of the graph `ei`. -/
def norm (ei : Vec F S2x3200000 .i32) : Vec F S3300000 .f32 := normOf (srcs ei) (dsts ei)

/-- One propagation step on 16 features: from edge weights `w`, sources `s` and destinations `d`. -/
def prop16 (w : Vec F S3300000 .f32) (s d : Vec F S3300000 .i32) (h : Vec F S100000x16 .f32) : Vec F S100000x16 .f32 :=
  Host.scatterAdd scatter_S100000x16_S3300000x1_S3300000x16_1_0_0_1 (broadcastInDim S100000x16 ![] bcast_S_S100000x16 (constant S_ .f32 0x00000000#32)) (broadcastInDim S3300000x1 ![0] bcast_S3300000_S3300000x1_0 d) (mulf (Host.gather gather_S100000x16_S3300000x1_S3300000x16_1_0_n_n_0_1_116 h (broadcastInDim S3300000x1 ![0] bcast_S3300000_S3300000x1_0 (wrap s))) (broadcastInDim S3300000x16 ![0, 1] bcast_S3300000x1_S3300000x16_0_1 (broadcastInDim S3300000x1 ![0] bcast_S3300000_S3300000x1_0 w)))

/-- One propagation step on 40 features. -/
def prop40 (w : Vec F S3300000 .f32) (s d : Vec F S3300000 .i32) (h : Vec F S100000x40 .f32) : Vec F S100000x40 .f32 :=
  Host.scatterAdd scatter_S100000x40_S3300000x1_S3300000x40_1_0_0_1 (broadcastInDim S100000x40 ![] bcast_S_S100000x40 (constant S_ .f32 0x00000000#32)) (broadcastInDim S3300000x1 ![0] bcast_S3300000_S3300000x1_0 d) (mulf (Host.gather gather_S100000x40_S3300000x1_S3300000x40_1_0_n_n_0_1_140 h (broadcastInDim S3300000x1 ![0] bcast_S3300000_S3300000x1_0 (wrap s))) (broadcastInDim S3300000x40 ![0, 1] bcast_S3300000x1_S3300000x40_0_1 (broadcastInDim S3300000x1 ![0] bcast_S3300000_S3300000x1_0 w)))

/-- The propagation step of the graph `ei`, on 16 and on 40 features. -/
def agg16 (ei : Vec F S2x3200000 .i32) (h : Vec F S100000x16 .f32) : Vec F S100000x16 .f32 := prop16 (norm ei) (srcs ei) (dsts ei) h
def agg40 (ei : Vec F S2x3200000 .i32) (h : Vec F S100000x40 .f32) : Vec F S100000x40 .f32 := prop40 (norm ei) (srcs ei) (dsts ei) h

/-- The first dense layer: rows of `x` against columns of `w`. -/
def lin1 (x : Vec F S100000x512 .f32) (w : Vec F S512x16 .f32) : Vec F S100000x16 .f32 :=
  Host.dotGeneral dot_S100000x512_S512x16_S100000x16_1_0_0_1_n_n none x w

/-- The second dense layer. -/
def lin2 (h : Vec F S100000x16 .f32) (w : Vec F S16x40 .f32) : Vec F S100000x40 .f32 :=
  Host.dotGeneral dot_S100000x16_S16x40_S100000x40_1_0_0_1_n_n none h w

/-- A bias as one row. -/
def row16 (b : Vec F S16 .f32) : Vec F S1x16 .f32 := broadcastInDim S1x16 ![1] bcast_S16_S1x16_1 b
def row40 (b : Vec F S40 .f32) : Vec F S1x40 .f32 := broadcastInDim S1x40 ![1] bcast_S40_S1x40_1 b

/-- Add the bias row to every row, then clamp below at 0. -/
def act1 (a : Vec F S100000x16 .f32) (b : Vec F S1x16 .f32) : Vec F S100000x16 .f32 :=
  maximumf (addf a (broadcastInDim S100000x16 ![0, 1] bcast_S1x16_S100000x16_0_1 b)) (broadcastInDim S100000x16 ![] bcast_S_S100000x16 (constant S_ .f32 0x00000000#32))

/-- Each row's maximum, as a column repeated along the row. -/
def rowMax (z : Vec F S100000x40 .f32) : Vec F S100000x40 .f32 :=
  broadcastInDim S100000x40 ![0, 1] bcast_S100000x1_S100000x40_0_1 (broadcastInDim S100000x1 ![0] bcast_S100000_S100000x1_0 (maximumf (broadcastInDim S100000 ![] bcast_S_S100000 (constant S_ .f32 0xFF800000#32)) (Host.reduce FloatOps.maximumf z (constant S_ .f32 0xFF800000#32) reducesTo_S100000x40_S100000_d1 h_S_)))

/-- The log-softmax of each row of `z`. -/
def lsmRows (z : Vec F S100000x40 .f32) : Vec F S100000x40 .f32 :=
  subf (subf z (rowMax z)) (broadcastInDim S100000x40 ![0, 1] bcast_S100000x1_S100000x40_0_1 (Host.log (broadcastInDim S100000x1 ![0] bcast_S100000_S100000x1_0 (Host.reduceAdd (Host.exp (subf z (rowMax z))) (constant S_ .f32 0x00000000#32) reducesTo_S100000x40_S100000_d1 h_S_))))

/-- Add the bias row to every row, then the log-softmax of each row. -/
def lsm (a : Vec F S100000x40 .f32) (b : Vec F S1x40 .f32) : Vec F S100000x40 .f32 :=
  lsmRows (addf a (broadcastInDim S100000x40 ![0, 1] bcast_S1x40_S100000x40_0_1 b))

/-- The network. -/
def gcn (x : Vec F S100000x512 .f32) (ei : Vec F S2x3200000 .i32) (w1 : Vec F S512x16 .f32) (b1 : Vec F S16 .f32)
    (w2 : Vec F S16x40 .f32) (b2 : Vec F S40 .f32) : Vec F S100000x40 .f32 :=
  lsm (agg40 ei (lin2 (act1 (agg16 ei (lin1 x w1)) (row16 b1)) w2)) (row40 b2)

end Cert.Gcn

end
-- ==== Proof.LibDot.lean ====
/-
  A plain matrix product read at an entry, at the ideal values.

  Every product in the network is "rows by columns": an `M × K` array against a `K × N` array, contracting the one
  shared axis, no batch axis. At the ideal values both the kernel's product into a zero accumulator and the host's
  product are, at entry `(p, q)`, the sum over `k` of `lhs (p, k) · rhs (k, q)`: no rounding and no order of
  accumulation is left in it. The two lemmas say so once, for all sizes; a printed dimension record of this kind is
  `DotDims.plain M K N` up to its well-formedness proof.
-/
import Idealize.ShloMosaic.PureOps.Ideal.Laws
import Idealize.ShloMosaic.Lib.ValueIdx

noncomputable section

namespace Cert.GNN

open Idealize.ShloMosaic Idealize.ShloMosaic.ValueIdx

variable {M K N : ℕ}

theorem plain_lhs0 (i : (⟨2, ![M, N]⟩ : Shape).Idx) (κ : (DotDims.plain M K N).contr.Idx) :
    ((DotDims.plain M K N).lhsIdx i κ 0).val = (i 0).val := rfl
theorem plain_lhs1 (i : (⟨2, ![M, N]⟩ : Shape).Idx) (κ : (DotDims.plain M K N).contr.Idx) :
    ((DotDims.plain M K N).lhsIdx i κ 1).val = (κ ⟨0, Nat.one_pos⟩).val := rfl
theorem plain_rhs0 (i : (⟨2, ![M, N]⟩ : Shape).Idx) (κ : (DotDims.plain M K N).contr.Idx) :
    ((DotDims.plain M K N).rhsIdx i κ 0).val = (κ ⟨0, Nat.one_pos⟩).val := rfl
theorem plain_rhs1 (i : (⟨2, ![M, N]⟩ : Shape).Idx) (κ : (DotDims.plain M K N).contr.Idx) :
    ((DotDims.plain M K N).rhsIdx i κ 1).val = (i 1).val := rfl

/-- The sum over the contraction index of a plain product, re-indexed by `k : Fin K`. -/
theorem plain_sum {φ₁ φ₂ : FTy} (lhs : FVec Ideal ⟨2, ![M, K]⟩ φ₁) (rhs : FVec Ideal ⟨2, ![K, N]⟩ φ₂) (p : Fin M) (q : Fin N) :
    (∑ κ : (DotDims.plain M K N).contr.Idx,
        lhs ((DotDims.plain M K N).lhsIdx (ix2 p q) κ) * rhs ((DotDims.plain M K N).rhsIdx (ix2 p q) κ))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain product into the zero accumulator, read at entry `(p, q)`. -/
theorem matmul_plain_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's plain product, read at entry `(p, q)`. -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

end Cert.GNN

end
-- ==== Proof.Region0.lean ====
/-
  The first dense layer as a pipelined region: point `t` of the grid multiplies rows `2000 t … 2000 t + 1999` of the
  node features by the whole weight matrix, into a zero accumulator, and writes those rows of the result. At the ideal values
  every entry is the plain sum over `k` of `x (r, k) · w (k, j)`, so the 50 blocks together are the host's product of the whole arrays.
-/
import proofs.«139665_j74002286510429_1_alg».proof.Proof.Gen.KernelIdeal.Frame
import proofs.«139665_j74002286510429_1_alg».proof.Proof.Spec
import proofs.«139665_j74002286510429_1_alg».proof.Proof.LibDot
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)

namespace Cert.KernelIdeal.Region0

open Cert.KernelIdeal Cert.KernelIdeal.Gen
open Idealize.ShloMosaic.ValueIdx

/-! ## One entry of the product, in a block and in the whole array -/

/-- The block's product into the zero accumulator, read at entry `(p, q)`: the sum over `k` of `x0 (p, k) · x1 (k, q)`. -/
theorem pay_apply (x0 : FVec Ideal S2000x512 .f32) (x1 : FVec Ideal S512x16 .f32) (p : Fin 2000) (q : Fin 16) :
    (k0_pay1 x0 x1 : FVec Ideal S2000x16 .f32) (ix2 p q) = ∑ k : Fin 512, x0 (ix2 p k) * x1 (ix2 k q) :=
  Cert.GNN.matmul_plain_zero_apply (M := 2000) (K := 512) (N := 16) none x0 x1 p q

/-- The host's product of the whole arrays, read at entry `(r, q)`: the same sum along row `r`. -/
theorem lin1_apply (x : FVec Ideal Cert.ReferenceIdeal.S100000x512 .f32) (w : FVec Ideal Cert.ReferenceIdeal.S512x16 .f32) (r : Fin 100000) (q : Fin 16) :
    Cert.Gcn.lin1 (F := Ideal) x w (ix2 r q) = ∑ k : Fin 512, x (ix2 r k) * w (ix2 k q) :=
  Cert.GNN.dotGeneral_plain_apply (M := 100000) (K := 512) (N := 16) none .single x w r q

variable (V : (c : Dev nD) → (b : Ref sig .tc) → Buf (Elt Ideal) ((c : Thread nD τ).loc b))

/-! ## The blocks of a point -/

theorem hz : (![0, 0] : Fin 2 → Nat) = fun _ => 0 := funext fun a => by fin_cases a <;> rfl

/-- The index maps over the grid: point `t` takes row block `t` of the features and of the result (column block 0), and the
    one block of the weights. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The features' block at point `t` is rows `2000 t … 2000 t + 1999` of the features. -/
theorem xblk_apply (c : Dev nD) (t : Fin cfg0.N) (p : Fin 2000) (k : Fin 512) (r : Fin 100000) (hr : r.val = 2000 * t.val + p.val) :
    (iblk0 V c 0 t : Vec Ideal S2000x512 .f32) (ix2 p k) = (V c main_arg0 : S100000x512.Idx → Elt Ideal .f32) (ix2 r k) := by
  obtain ⟨e0, e1, -, -, -, -⟩ := idx_facts t
  unfold iblk0
  rw [View.read_apply]
  show V c main_arg0 _ = V c main_arg0 _
  congr 1
  funext a
  apply Fin.ext
  match a with
  | ⟨0, _⟩ => show win0_0.index t (0 : Fin 2) * 2000 + 1 * p.val = r.val; omega
  | ⟨1, _⟩ => show win0_0.index t (1 : Fin 2) * 512 + 1 * k.val = k.val; omega

/-- The weights' block at every point is the whole weight matrix. -/
theorem wblk_apply (c : Dev nD) (t : Fin cfg0.N) (k : Fin 512) (q : Fin 16) :
    (iblk0 V c 1 t : Vec Ideal S512x16 .f32) (ix2 k q) = (V c main_arg2 : S512x16.Idx → Elt Ideal .f32) (ix2 k q) := by
  obtain ⟨-, -, e2, e3, -, -⟩ := idx_facts t
  unfold iblk0
  rw [View.read_apply]
  show V c main_arg2 _ = V c main_arg2 _
  congr 1
  funext a
  apply Fin.ext
  match a with
  | ⟨0, _⟩ => show win0_1.index t (0 : Fin 2) * 512 + 1 * k.val = k.val; omega
  | ⟨1, _⟩ => show win0_1.index t (1 : Fin 2) * 16 + 1 * q.val = q.val; omega

/-! ## What a point writes back, and the blocks together -/

/-- What point `t` writes back is block `t` of the host's product of the two arrays as the region found them. -/
theorem flushed_eq (c : Dev nD) (t : Fin cfg0.N) :
    (dat0 (F := Ideal) V c).flushed 2 t
      = ((cfg0.win 2).blk t).view.read (Elt Ideal) (Cert.Gcn.lin1 (F := Ideal) (V c main_arg0) (V c main_arg2)) := by
  show (cfg0.win 2).cut (grid0.coords t) ((dat0 (F := Ideal) V c).after 2 t) = _
  rw [after0_2]
  unfold out0_2
  rw [View.canon_unit_zero hz]
  simp only [View.ld_unit_zero (S := S2000x512) hz, View.ld_unit_zero (S := S512x16) hz]
  obtain ⟨-, -, -, -, e4, e5⟩ := idx_facts t
  have hN : cfg0.N = 50 := N_0
  have ht : t.val < 50 := hN ▸ t.isLt
  funext j
  obtain ⟨p, q, rfl⟩ : ∃ (p : Fin 2000) (q : Fin 16), j = ix2 p q := ⟨j 0, j 1, eq_ix2 j⟩
  have hp : p.val < 2000 := p.isLt
  have hemb : ((cfg0.win 2).blk t).view.emb (ix2 p q) = (ix2 (⟨2000 * t.val + p.val, by omega⟩ : Fin 100000) q : S100000x16.Idx) := by
    funext a
    apply Fin.ext
    match a with
    | ⟨0, _⟩ => show win0_2.index t (0 : Fin 2) * 2000 + 1 * p.val = 2000 * t.val + p.val; omega
    | ⟨1, _⟩ => show win0_2.index t (1 : Fin 2) * 16 + 1 * q.val = q.val; omega
  show (k0_pay1 (iblk0 V c 0 t) (iblk0 V c 1 t) : FVec Ideal S2000x16 .f32) (ix2 p q)
    = Cert.Gcn.lin1 (F := Ideal) (V c main_arg0) (V c main_arg2) (((cfg0.win 2).blk t).view.emb (ix2 p q))
  rw [hemb, pay_apply, lin1_apply]
  refine Finset.sum_congr rfl fun k _ => ?_
  rw [xblk_apply V c t p k ⟨2000 * t.val + p.val, by omega⟩ rfl, wblk_apply V c t k q]

/-- An index of the result lies in point `t`'s block iff each coordinate is in the block's range on its axis. -/
theorem mem_blk (t : Fin cfg0.N) (i : S100000x16.Idx) :
    i ∈ ((cfg0.win 2).blk t).view.set ↔ ∀ a : Fin 2, win0_2.index t a * S2000x16.size a ≤ (i a).val ∧ (i a).val < win0_2.index t a * S2000x16.size a + S2000x16.size a := by
  show i ∈ ((View.whole main_v31).slice (win0_2.rect t)).set ↔ _
  rw [View.set_slice_whole, Rect.mem_set_unit]
  exact Iff.rfl

/-- Every row `r` of the result is in the block of the point `r / 2000`. -/
theorem cover (i : S100000x16.Idx) : ∃ t : Fin cfg0.N, (cfg0.win 2).flush t = true ∧ i ∈ ((cfg0.win 2).blk t).view.set := by
  have hN : cfg0.N = 50 := N_0
  have hi0 : (i 0).val < 100000 := (i 0).isLt
  have hi1 : (i 1).val < 16 := (i 1).isLt
  let t : Fin cfg0.N := ⟨(i 0).val / 2000, by rw [hN]; omega⟩
  have htv : t.val = (i 0).val / 2000 := rfl
  obtain ⟨-, -, -, -, e4, e5⟩ := idx_facts t
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 16 ≤ (i 1).val ∧ (i 1).val < win0_2.index t (1 : Fin 2) * 16 + 16; omega

/-- After the region has run from the contents `V`, its output array is the whole-array function of the region's two
    input arrays as it found them. -/
theorem final (c : Dev nD) : (dat0 (F := Ideal) V c).arrAt 2 cfg0.N = Cert.Gcn.lin1 (F := Ideal) (V c main_arg0) (V c main_arg2) :=
  (dat0 (F := Ideal) V c).arrAt_eq_of_cover 2 (Cert.Gcn.lin1 (F := Ideal) (V c main_arg0) (V c main_arg2))
    (fun t _ => flushed_eq V c t) cover

end Cert.KernelIdeal.Region0

end
-- ==== Proof.Region1.lean ====
/-
  Bias and clamp as a pipelined region: point `t` of the grid adds the one bias row to rows `2000 t … 2000 t + 1999`
  of its input and takes the maximum with 0, entry by entry. The 50 blocks together are the whole-array `max (a + b, 0)`.

  Both sides are read at an entry: the block's payload at `(p, q)` is `max (x (p, q) + b (0, q)) 0`, the whole-array
  function at `(r, q)` is `max (a (r, q) + b (0, q)) 0`, and entry `(p, q)` of block `t` is entry `(2000 t + p, q)` of the
  array, for the input and for the output alike. So what point `t` writes back is block `t` of the whole-array function;
  every row `r` lies in the block of point `r / 2000`, so the blocks cover the array and it ends holding that function.
-/
import proofs.«139665_j74002286510429_1_alg».proof.Proof.Gen.KernelIdeal.Frame
import proofs.«139665_j74002286510429_1_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.Lib.KernelVsHost
import Idealize.ShloMosaic.PureOps.Ideal.Laws

noncomputable section

open Idealize.ShloMosaic Idealize.ShloMosaic.TcCoe Idealize.SL.Sem
open Idealize.ShloMosaic.Pipeline (Dat)

namespace Cert.KernelIdeal.Region1

open Cert.KernelIdeal Cert.KernelIdeal.Gen
open Idealize.ShloMosaic.ValueIdx

/-- Zero offsets on both axes, however the zeros are spelt. -/
theorem zero_offsets : (![0, 0] : Fin 2 → Nat) = fun _ => 0 := funext fun a => by fin_cases a <;> rfl

/-- The body's payload at row `p`, column `q` of its block: the input entry plus the bias row's entry of that column,
    clamped below at the zero word. -/
theorem payload_apply (x0 : Vec Ideal S2000x16 .f32) (x1 : Vec Ideal S1x16 .f32) (p : Fin 2000) (q : Fin 16) :
    k1_pay1 x0 x1 (ix2 p q) = max (x0 (ix2 p q) + x1 (ix2 (0 : Fin 1) q)) (Ideal.ofBits .f32 0x00000000#32) := by
  unfold k1_pay1
  rw [maximumf_apply, addf_apply, broadcast_apply, shapeCast_self, shapeCast_self, broadcastTo_1b_ab_apply]
  rfl

/-- The whole-array function at row `r`, column `q`: the same expression of the array's entry and the bias row's. -/
theorem act1_apply (a : Vec Ideal Cert.ReferenceIdeal.S100000x16 .f32) (b : Vec Ideal Cert.ReferenceIdeal.S1x16 .f32) (r : Fin 100000) (q : Fin 16) :
    Cert.Gcn.act1 (F := Ideal) a b (ix2 r q) = max (a (ix2 r q) + b (ix2 (0 : Fin 1) q)) (Ideal.ofBits .f32 0x00000000#32) := by
  unfold Cert.Gcn.act1
  rw [maximumf_apply, addf_apply, broadcastInDim_oneRow_apply, broadcastInDim_scalar_apply, constant_apply]

variable (V : (c : Dev nD) → (b : Ref sig .tc) → Buf (Elt Ideal) ((c : Thread nD τ).loc b))

/-- The printed index maps, decided over the grid: the input's and the output's blocks of point `t` sit at block row
    `t`, block column 0; the bias row's one block at (0, 0). -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the whole-array function of the two input arrays as the region finds them. -/
theorem flushed_eq (c : Dev nD) (t : Fin cfg1.N) :
    (dat1 (F := Ideal) V c).flushed 2 t = ((cfg1.win 2).blk t).view.read (Elt Ideal) (Cert.Gcn.act1 (F := Ideal) (V c main_v44) (V c main_v45)) := by
  show (cfg1.win 2).cut (grid1.coords t) ((dat1 V c).after 2 t) = _
  rw [after1_2]
  unfold out1_2
  rw [View.canon_unit_zero zero_offsets]
  simp only [View.ld_unit_zero (S := S2000x16) zero_offsets, View.ld_unit_zero (S := S1x16) zero_offsets]
  funext j
  obtain ⟨p, q, rfl⟩ : ∃ (p : Fin 2000) (q : Fin 16), j = ix2 p q := ⟨j 0, j 1, eq_ix2 j⟩
  obtain ⟨e0, e1, e2, e3, e4, e5⟩ := index_facts t
  have ht : t.val < 50 := lt_of_lt_of_eq t.isLt N_1
  have hp : p.val < 2000 := p.isLt
  -- the output's entry (p, q) of block t is the array's entry (2000 t + p, q)
  have hout : ((cfg1.win 2).blk t).view.emb (ix2 p q) = ix2 (⟨2000 * t.val + p.val, by omega⟩ : Fin 100000) q := by
    funext a; apply Fin.ext
    match a with
    | ⟨0, _⟩ => show win1_2.index t (0 : Fin 2) * 2000 + 1 * p.val = 2000 * t.val + p.val; omega
    | ⟨1, _⟩ => show win1_2.index t (1 : Fin 2) * 16 + 1 * q.val = q.val; omega
  -- the input's entry (p, q) of block t is the same entry of its array
  have hin : ((cfg1.win 0).blk t).view.emb (ix2 p q) = ix2 (⟨2000 * t.val + p.val, by omega⟩ : Fin 100000) q := by
    funext a; apply Fin.ext
    match a with
    | ⟨0, _⟩ => show win1_0.index t (0 : Fin 2) * 2000 + 1 * p.val = 2000 * t.val + p.val; omega
    | ⟨1, _⟩ => show win1_0.index t (1 : Fin 2) * 16 + 1 * q.val = q.val; omega
  -- the bias row's one block is the row
  have hrow : ((cfg1.win 1).blk t).view.emb (ix2 (0 : Fin 1) q) = ix2 (0 : Fin 1) q := by
    funext a; apply Fin.ext
    match a with
    | ⟨0, _⟩ => show win1_1.index t (0 : Fin 2) * 1 + 1 * 0 = 0; omega
    | ⟨1, _⟩ => show win1_1.index t (1 : Fin 2) * 16 + 1 * q.val = q.val; omega
  show k1_pay1 (iblk1 V c 0 t) (iblk1 V c 1 t) (ix2 p q)
    = Cert.Gcn.act1 (F := Ideal) (V c main_v44) (V c main_v45) (((cfg1.win 2).blk t).view.emb (ix2 p q))
  have r0 : (iblk1 V c 0 t : Vec Ideal S2000x16 .f32) (ix2 p q)
      = (V c main_v44 : Vec Ideal S100000x16 .f32) (ix2 (⟨2000 * t.val + p.val, by omega⟩ : Fin 100000) q) :=
    congrArg (V c main_v44) hin
  have r1 : (iblk1 V c 1 t : Vec Ideal S1x16 .f32) (ix2 (0 : Fin 1) q) = (V c main_v45 : Vec Ideal S1x16 .f32) (ix2 (0 : Fin 1) q) :=
    congrArg (V c main_v45) hrow
  rw [hout, act1_apply, payload_apply, r0, r1]

/-- An index of the array is in point `t`'s block iff each coordinate is in the block's range on its axis. -/
theorem mem_blk (t : Fin cfg1.N) (i : S100000x16.Idx) :
    i ∈ ((cfg1.win 2).blk t).view.set ↔ ∀ a : Fin 2, win1_2.index t a * S2000x16.size a ≤ (i a).val
      ∧ (i a).val < win1_2.index t a * S2000x16.size a + S2000x16.size a := by
  show i ∈ ((View.whole main_v46).slice (win1_2.rect t)).set ↔ _
  rw [View.set_slice_whole, Rect.mem_set_unit]
  exact Iff.rfl

/-- The 50 blocks of 2000 rows fill the 100000 rows: row `r` lies in the block of point `r / 2000`. -/
theorem cover (i : S100000x16.Idx) :
    ∃ t : Fin cfg1.N, (cfg1.win 2).flush t = true ∧ i ∈ ((cfg1.win 2).blk t).view.set := by
  have hi0 : (i 0).val < 100000 := (i 0).isLt
  have hi1 : (i 1).val < 16 := (i 1).isLt
  have hN : cfg1.N = 50 := N_1
  obtain ⟨t, htv⟩ : ∃ t : Fin cfg1.N, t.val = (i 0).val / 2000 := ⟨⟨(i 0).val / 2000, by rw [hN]; omega⟩, rfl⟩
  obtain ⟨e0, e1, e2, e3, e4, e5⟩ := index_facts t
  refine ⟨t, flush1_2 t, ?_⟩
  rw [mem_blk]
  intro a
  match a with
  | ⟨0, _⟩ =>
    show win1_2.index t (0 : Fin 2) * 2000 ≤ (i 0).val ∧ (i 0).val < win1_2.index t (0 : Fin 2) * 2000 + 2000
    omega
  | ⟨1, _⟩ =>
    show win1_2.index t (1 : Fin 2) * 16 ≤ (i 1).val ∧ (i 1).val < win1_2.index t (1 : Fin 2) * 16 + 16
    omega

/-- After the region has run from the contents `V`, its output array is the whole-array function of the region's two
    input arrays as it found them. -/
theorem final (c : Dev nD) : (dat1 (F := Ideal) V c).arrAt 2 cfg1.N = Cert.Gcn.act1 (F := Ideal) (V c main_v44) (V c main_v45) :=
  (dat1 (F := Ideal) V c).arrAt_eq_of_cover 2 (Cert.Gcn.act1 (F := Ideal) (V c main_v44) (V c main_v45))
    (fun t _ => flushed_eq V c t) cover

end Cert.KernelIdeal.Region1

end
-- ==== Proof.Region2.lean ====
/-
  The second dense layer as a pipelined region: point `t` of the grid multiplies rows `2000 t … 2000 t + 1999` of the
  hidden features by the whole weight matrix, into a zero accumulator, and writes those rows of the result. At the ideal values
  every entry is the plain sum over `k` of `h (r, k) · w (k, j)`, so the 50 blocks together are the host's product of the whole arrays.
-/
import proofs.«139665_j74002286510429_1_alg».proof.Proof.Gen.KernelIdeal.Frame
import proofs.«139665_j74002286510429_1_alg».proof.Proof.Spec
import proofs.«139665_j74002286510429_1_alg».proof.Proof.LibDot
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)

namespace Cert.KernelIdeal.Region2

open Cert.KernelIdeal Cert.KernelIdeal.Gen
open Idealize.ShloMosaic.ValueIdx (ix2 eq_ix2)

/-! ## The product at an entry, in the block and in the whole array -/

/-- The body's payload at entry `(p, q)` of a block: row `p` of the block of hidden features against column `q` of the weights. -/
theorem pay_apply (x0 : Vec Ideal S2000x16 .f32) (x1 : Vec Ideal S16x40 .f32) (p : Fin 2000) (q : Fin 40) :
    k2_pay1 (F := Ideal) x0 x1 (ix2 p q) = ∑ k : Fin 16, x0 (ix2 p k) * x1 (ix2 k q) := by
  unfold k2_pay1
  rw [shapeCast_self]
  exact Cert.GNN.matmul_plain_zero_apply (M := 2000) (K := 16) (N := 40) none x0 x1 p q

/-- The host's product at entry `(r, q)` of the whole array: row `r` of the hidden features against column `q` of the weights. -/
theorem lin2_apply (h : Vec Ideal S100000x16 .f32) (w : Vec Ideal S16x40 .f32) (r : Fin 100000) (q : Fin 40) :
    Cert.Gcn.lin2 (F := Ideal) h w (ix2 r q) = ∑ k : Fin 16, h (ix2 r k) * w (ix2 k q) := by
  unfold Cert.Gcn.lin2
  exact Cert.GNN.dotGeneral_plain_apply (M := 100000) (K := 16) (N := 40) none .single h w r q

variable (V : (c : Dev nD) → (b : Ref sig .tc) → Buf (Elt Ideal) ((c : Thread nD τ).loc b))

/-! ## What one point writes back -/

/-- The offset of a load or store of a whole block: zero on both axes. -/
theorem hz : (![0, 0] : Fin 2 → Nat) = fun _ => 0 := funext fun a => by fin_cases a <;> rfl

/-- The printed index maps over the grid: the blocks of hidden features and of the result sit at block row `t`, block column 0;
    the weights are always block (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Entry `(p, k)` of point `t`'s block of hidden features is entry `(2000 t + p, k)` of the array. -/
theorem hidden_blk_apply (c : Dev nD) (t : Fin cfg2.N) (p : Fin 2000) (k : Fin 16) (r : Fin 100000)
    (hr : r.val = 2000 * t.val + p.val) :
    (iblk2 (F := Ideal) V c 0 t : Vec Ideal S2000x16 .f32) (ix2 p k) = (V c main_v46 : Vec Ideal S100000x16 .f32) (ix2 r k) := by
  obtain ⟨e0, e1, -, -, -, -⟩ := idx_facts t
  unfold iblk2
  rw [View.read_apply]
  show V c main_v46 _ = V c main_v46 _
  congr 1
  funext a
  apply Fin.ext
  match a with
  | ⟨0, _⟩ => show win2_0.index t (0 : Fin 2) * 2000 + 1 * p.val = r.val; omega
  | ⟨1, _⟩ => show win2_0.index t (1 : Fin 2) * 16 + 1 * k.val = k.val; omega

/-- Every point's block of the weights is the whole weight matrix. -/
theorem weight_blk_apply (c : Dev nD) (t : Fin cfg2.N) (k : Fin 16) (q : Fin 40) :
    (iblk2 (F := Ideal) V c 1 t : Vec Ideal S16x40 .f32) (ix2 k q) = (V c main_arg4 : Vec Ideal S16x40 .f32) (ix2 k q) := by
  obtain ⟨-, -, e2, e3, -, -⟩ := idx_facts t
  unfold iblk2
  rw [View.read_apply]
  show V c main_arg4 _ = V c main_arg4 _
  congr 1
  funext a
  apply Fin.ext
  match a with
  | ⟨0, _⟩ => show win2_1.index t (0 : Fin 2) * 16 + 1 * k.val = k.val; omega
  | ⟨1, _⟩ => show win2_1.index t (1 : Fin 2) * 40 + 1 * q.val = q.val; omega

/-- Entry `(p, q)` of point `t`'s block of the result array is entry `(2000 t + p, q)` of the array. -/
theorem out_emb (t : Fin cfg2.N) (p : Fin 2000) (q : Fin 40) (r : Fin 100000) (hr : r.val = 2000 * t.val + p.val) :
    ((cfg2.win 2).blk t).view.emb (ix2 p q) = (ix2 r q : S100000x40.Idx) := by
  obtain ⟨-, -, -, -, e4, e5⟩ := idx_facts t
  funext a
  apply Fin.ext
  match a with
  | ⟨0, _⟩ => show win2_2.index t (0 : Fin 2) * 2000 + 1 * p.val = r.val; omega
  | ⟨1, _⟩ => show win2_2.index t (1 : Fin 2) * 40 + 1 * q.val = q.val; omega

/-- What point `t` writes back is block `t` of the host's product of the two arrays as the region finds them. -/
theorem flushed_eq (c : Dev nD) (t : Fin cfg2.N) :
    (dat2 (F := Ideal) V c).flushed 2 t
      = ((cfg2.win 2).blk t).view.read (Elt Ideal) (Cert.Gcn.lin2 (F := Ideal) (V c main_v46) (V c main_arg4)) := by
  show (cfg2.win 2).cut (grid2.coords t) ((dat2 V c).after 2 t) = _
  rw [after2_2]
  unfold out2_2
  rw [View.canon_unit_zero hz]
  simp only [View.ld_unit_zero (S := S2000x16) hz, View.ld_unit_zero (S := S16x40) hz]
  funext j
  obtain ⟨p, q, rfl⟩ : ∃ (p : Fin 2000) (q : Fin 40), j = ix2 p q := ⟨j 0, j 1, eq_ix2 j⟩
  have hN : cfg2.N = 50 := N_2
  have ht : t.val < 50 := by have := t.isLt; omega
  have hr : 2000 * t.val + p.val < 100000 := by have := p.isLt; omega
  show k2_pay1 (F := Ideal) (iblk2 V c 0 t) (iblk2 V c 1 t) (ix2 p q)
      = Cert.Gcn.lin2 (F := Ideal) (V c main_v46) (V c main_arg4) (((cfg2.win 2).blk t).view.emb (ix2 p q))
  rw [out_emb t p q ⟨2000 * t.val + p.val, hr⟩ rfl, lin2_apply]
  refine (pay_apply _ _ p q).trans ?_
  refine Finset.sum_congr rfl fun k _ => ?_
  rw [hidden_blk_apply V c t p k ⟨2000 * t.val + p.val, hr⟩ rfl, weight_blk_apply V c t k q]

/-! ## The 50 blocks tile the result array -/

/-- An index of the result array is in point `t`'s block iff each coordinate is in the block's range on its axis. -/
theorem mem_blk (t : Fin cfg2.N) (i : S100000x40.Idx) :
    i ∈ ((cfg2.win 2).blk t).view.set ↔ ∀ a : Fin 2, win2_2.index t a * S2000x40.size a ≤ (i a).val
      ∧ (i a).val < win2_2.index t a * S2000x40.size a + S2000x40.size a := by
  show i ∈ ((View.whole main_v47).slice (win2_2.rect t)).set ↔ _
  rw [View.set_slice_whole, Rect.mem_set_unit]
  exact Iff.rfl

/-- Row `r` of the result array lies in the block of point `r / 2000`, which writes its block back. -/
theorem cover (i : S100000x40.Idx) :
    ∃ t : Fin cfg2.N, (cfg2.win 2).flush t = true ∧ i ∈ ((cfg2.win 2).blk t).view.set := by
  have hN : cfg2.N = 50 := N_2
  have hi0 : (i 0).val < 100000 := (i 0).isLt
  have hi1 : (i 1).val < 40 := (i 1).isLt
  obtain ⟨t, ht⟩ : ∃ t : Fin cfg2.N, t.val = (i 0).val / 2000 := ⟨⟨(i 0).val / 2000, by rw [hN]; omega⟩, rfl⟩
  obtain ⟨-, -, -, -, e4, e5⟩ := idx_facts t
  refine ⟨t, flush2_2 t, ?_⟩
  rw [mem_blk]
  intro a
  match a with
  | ⟨0, _⟩ =>
    show win2_2.index t (0 : Fin 2) * 2000 ≤ (i 0).val ∧ (i 0).val < win2_2.index t (0 : Fin 2) * 2000 + 2000
    omega
  | ⟨1, _⟩ =>
    show win2_2.index t (1 : Fin 2) * 40 ≤ (i 1).val ∧ (i 1).val < win2_2.index t (1 : Fin 2) * 40 + 40
    omega

/-! ## The region's result -/

/-- After the region has run from the contents `V`, its output array is the whole-array function of the region's two
    input arrays as it found them. -/
theorem final (c : Dev nD) : (dat2 (F := Ideal) V c).arrAt 2 cfg2.N = Cert.Gcn.lin2 (F := Ideal) (V c main_v46) (V c main_arg4) := by
  exact (dat2 (F := Ideal) V c).arrAt_eq_of_cover 2 (Cert.Gcn.lin2 (F := Ideal) (V c main_v46) (V c main_arg4))
    (fun t _ => flushed_eq V c t) cover

end Cert.KernelIdeal.Region2

end
-- ==== Proof.Region3.lean ====
/-
  Bias and log-softmax as a pipelined region: point `t` of the grid adds the one bias row to rows `2000 t … 2000 t + 1999`
  of its input and replaces each row `z` by `z - max z - log (Σ exp (z - max z))`. A row's maximum and sum only read that row,
  so the 50 blocks together are the whole-array log-softmax of `a + b`.
-/
import proofs.«139665_j74002286510429_1_alg».proof.Proof.Gen.KernelIdeal.Frame
import proofs.«139665_j74002286510429_1_alg».proof.Proof.Spec
import Idealize.ShloMosaic.Lib.ReduceAll
import Idealize.ShloMosaic.Lib.Pipeline.Value
import Idealize.ShloMosaic.Lib.ValueIdx
import Idealize.ShloMosaic.Lib.ValueLayout
import Idealize.ShloMosaic.PureOps.Ideal.Laws
import Idealize.ShloMosaic.Lib.IdealHost

noncomputable section

open Idealize.ShloMosaic Idealize.ShloMosaic.TcCoe Idealize.SL.Sem
open Idealize.ShloMosaic.Pipeline (Dat)

namespace Cert.KernelIdeal.Region3

open Cert.KernelIdeal Cert.KernelIdeal.Gen
open Idealize.ShloMosaic.ValueIdx

variable (V : (c : Dev nD) → (b : Ref sig .tc) → Buf (Elt Ideal) ((c : Thread nD τ).loc b))

/-! ## One row -/

/-- The largest of the 40 entries of a row of extended reals (`⊥` when there is none above it). -/
def rowMax (z : Fin 40 → EReal) : EReal := (Finset.univ : Finset (Fin 40)).fold max ⊥ z

/-- The log-softmax of a row at entry `q`: `z q - max z - log (Σ exp (z k - max z))`. -/
def rowLsm (z : Fin 40 → EReal) (q : Fin 40) : EReal :=
  z q - rowMax z - Ideal.log (∑ k : Fin 40, Ideal.exp (z k - rowMax z))

/-- The f32 pattern of `-∞` is the bottom extended real. -/
theorem ofBits_neg_inf : Ideal.ofBits .f32 0xFF800000#32 = ⊥ := by simp [Ideal.ofBits, Ideal.ieee]

/-! ## Layout operations of a column read at an index -/

/-- A `[a]` array cast to the column `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along its rows to `[a, b]` reads, at `(p, c)`, the column at `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A row's reductions -/

theorem exp_apply {s : Shape} {φ : FTy} (a : FVec Ideal s φ) (i : s.Idx) : exp a i = Ideal.exp (a i) := rfl
theorem log_apply {s : Shape} {φ : FTy} (a : FVec Ideal s φ) (i : s.Idx) : log a i = Ideal.log (a i) := rfl
theorem hostExp_apply {s : Shape} {φ : FTy} (a : FVec Ideal s φ) (i : s.Idx) : Host.exp a i = Ideal.exp (a i) := rfl
theorem hostLog_apply {s : Shape} {φ : FTy} (a : FVec Ideal s φ) (i : s.Idx) : Host.log a i = Ideal.log (a i) := rfl

/-- Row `p` of an `[n, 40]` array with column `k` put back is the index `(p, k)`. -/
theorem lift_row {n : ℕ} (h : (⟨2, ![n, 40]⟩ : Shape).Reduces [1] ⟨1, ![n]⟩) (p : Fin n) (k : Fin 40) : h.lift (ix1 p) k = ix2 p k := by
  funext c
  apply Fin.ext
  match c with
  | ⟨0, _⟩ => rfl
  | ⟨1, _⟩ => rfl

/-- The body's row maximum, seeded with `-∞`, at row `p` is the largest entry of that row. -/
theorem kmax_apply (z : FVec Ideal S2000x40 .f32) (h : S2000x40.Reduces [1] S2000) (hφ : FKind.Formats .f32)
    (hacc : (0xFF800000#32 : BitVec 32) = 0xFF800000#32) (p : Fin 2000) :
    multiReduction (F := Ideal) .maximumf [1] S2000 z 0xFF800000#32 h hφ hacc (ix1 p) = rowMax (fun k => z (ix2 p k)) := by
  refine (Ideal.multiReduction_maximumf_single z _ h hφ hacc (ix1 p)).trans ?_
  show (Finset.univ : Finset (Fin 40)).fold max (Ideal.ofBits .f32 0xFF800000#32) (z ∘ h.lift (ix1 p)) = _
  have e : (z ∘ h.lift (ix1 p)) = fun k : Fin 40 => z (ix2 p k) := funext fun k => congrArg z (lift_row h p k)
  rw [ofBits_neg_inf, e]
  rfl

/-- The body's row sum at row `p` is the sum of that row's 40 entries. -/
theorem ksum_apply (w : FVec Ideal S2000x40 .f32) (h : S2000x40.Reduces [1] S2000) (hφ : FKind.Formats .f32)
    (hacc : (0x00000000#32 : BitVec 32) = 0x00000000#32) (p : Fin 2000) :
    multiReduction (F := Ideal) .add [1] S2000 w 0x00000000#32 h hφ hacc (ix1 p) = ∑ k : Fin 40, w (ix2 p k) := by
  refine (Ideal.multiReduction_add_single w _ h hφ hacc (ix1 p)).trans ?_
  exact Finset.sum_congr rfl fun k _ => congrArg w (lift_row h p k)

/-! ## The body's payload at an index -/

/-- What the body stores at row `p`, column `q` of its block: the log-softmax of row `p` of the loaded block plus the bias row. -/
theorem pay_apply (x0 : Vec Ideal S2000x40 .f32) (x1 : Vec Ideal S1x40 .f32) (p : Fin 2000) (q : Fin 40) :
    k3_pay1 x0 x1 (ix2 p q) = rowLsm (fun k => x0 (ix2 p k) + x1 (ix2 (0 : Fin 1) k)) q := by
  unfold k3_pay1
  simp only [shapeCast_self]
  rw [subf_apply, broadcastTo_a1_ab_apply, log_apply, shapeCast_a_a1_apply, ksum_apply]
  simp only [exp_apply, subf_apply, broadcastTo_a1_ab_apply, shapeCast_a_a1_apply, kmax_apply, addf_apply, broadcastTo_1b_ab_apply]
  rw [kmax_apply]
  simp only [addf_apply, broadcastTo_1b_ab_apply]
  rfl

/-! ## The whole-array function at an index -/

/-- One row broadcast down `a` rows reads, at `(p, c)`, the row at `c`. -/
theorem bcastRow_apply {α : Type} {a b : ℕ} (h : (⟨2, ![1, b]⟩ : Shape).BroadcastsInDim ⟨2, ![a, b]⟩ (![0, 1] : Fin 2 → Fin 2))
    (v : (⟨2, ![1, b]⟩ : Shape).Idx → α) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- A column broadcast along its rows reads, at `(p, c)`, the column at `p`. -/
theorem bcastCol_apply {α : Type} {a b : ℕ} (h : (⟨2, ![a, 1]⟩ : Shape).BroadcastsInDim ⟨2, ![a, b]⟩ (![0, 1] : Fin 2 → Fin 2))
    (v : (⟨2, ![a, 1]⟩ : Shape).Idx → α) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- A list of `a` entries as a column reads, at `(p, u)`, the list at `p`. -/
theorem bcastVec_apply {α : Type} {a : ℕ} (h : (⟨1, ![a]⟩ : Shape).BroadcastsInDim ⟨2, ![a, 1]⟩ (![0] : Fin 1 → Fin 2))
    (v : (⟨1, ![a]⟩ : Shape).Idx → α) (p : Fin a) (u : Fin 1) :
    broadcastInDim ⟨2, ![a, 1]⟩ ![0] h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

/-- The host's row maximum from an initial value, at row `r`, is the fold of `max` from it over that row's entries. -/
theorem hmax_apply {n : ℕ} (z : (⟨2, ![n, 40]⟩ : Shape).Idx → EReal) (init : (⟨0, ![]⟩ : Shape).Idx → EReal)
    (h' : (⟨2, ![n, 40]⟩ : Shape).ReducesTo [1] ⟨1, ![n]⟩) (h : (⟨2, ![n, 40]⟩ : Shape).Reduces [1] ⟨1, ![n]⟩)
    (hu : 0 < (⟨0, ![]⟩ : Shape).numel) (r : Fin n) :
    Host.reduce (FloatOps.maximumf (F := Ideal) (φ := .f32)) z init h' hu (ix1 r)
      = (Finset.univ : Finset (Fin 40)).fold max (init (Shape.Idx.first hu)) (fun k => z (ix2 r k)) := by
  refine (Host.reduce_eq_fold_single _ z init h' h hu (ix1 r)).trans ?_
  have e : (z ∘ h.lift (ix1 r)) = fun k : Fin 40 => z (ix2 r k) := funext fun k => congrArg z (lift_row h r k)
  rw [e]
  rfl

/-- The host's row sum from an initial value, at row `r`, is the initial value plus the sum of that row's entries. -/
theorem hsum_apply {n : ℕ} (w : FVec Ideal (⟨2, ![n, 40]⟩ : Shape) .f32) (init : (⟨0, ![]⟩ : Shape).Idx → EReal)
    (h' : (⟨2, ![n, 40]⟩ : Shape).ReducesTo [1] ⟨1, ![n]⟩) (h : (⟨2, ![n, 40]⟩ : Shape).Reduces [1] ⟨1, ![n]⟩)
    (hu : 0 < (⟨0, ![]⟩ : Shape).numel) (r : Fin n) :
    Host.reduceAdd (F := Ideal) w init h' hu (ix1 r) = init (Shape.Idx.first hu) + ∑ k : Fin 40, w (ix2 r k) := by
  rw [hostReduceAdd_apply]
  refine (Ideal.hostReduceAdd_single h' h w _ (ix1 r)).trans ?_
  exact congrArg _ (Finset.sum_congr rfl fun k _ => congrArg w (lift_row h r k))

theorem reduces_rows : (⟨2, ![100000, 40]⟩ : Shape).Reduces [1] ⟨1, ![100000]⟩ := by decide

/-- The reference's row maximum at `(r, q)` is the largest entry of row `r`. -/
theorem refRowMax_apply (z : Vec Ideal S100000x40 .f32) (r : Fin 100000) (q : Fin 40) :
    Cert.Gcn.rowMax (F := Ideal) z (ix2 r q) = rowMax (fun k => z (ix2 r k)) := by
  unfold Cert.Gcn.rowMax
  rw [bcastCol_apply, bcastVec_apply, maximumf_apply, broadcastInDim_scalar_apply, constant_apply, ofBits_neg_inf,
    hmax_apply z _ _ reduces_rows, constant_apply, ofBits_neg_inf]
  exact max_eq_right bot_le

/-- The reference's log-softmax of the rows of `z`, at `(r, q)`, is the log-softmax of row `r` at `q`. -/
theorem refLsmRows_apply (z : Vec Ideal S100000x40 .f32) (r : Fin 100000) (q : Fin 40) :
    Cert.Gcn.lsmRows (F := Ideal) z (ix2 r q) = rowLsm (fun k => z (ix2 r k)) q := by
  unfold Cert.Gcn.lsmRows
  rw [subf_apply, subf_apply, refRowMax_apply, bcastCol_apply, hostLog_apply, bcastVec_apply,
    hsum_apply _ _ _ reduces_rows, constant_apply, Ideal.ofBits_zero_f32, zero_add]
  simp only [hostExp_apply, subf_apply, refRowMax_apply]
  rfl

/-- The whole-array function at `(r, q)`: the log-softmax of row `r` of `a` plus the bias row, at `q`. -/
theorem refLsm_apply (a : Vec Ideal S100000x40 .f32) (b : Vec Ideal S1x40 .f32) (r : Fin 100000) (q : Fin 40) :
    Cert.Gcn.lsm (F := Ideal) a b (ix2 r q) = rowLsm (fun k => a (ix2 r k) + b (ix2 (0 : Fin 1) k)) q := by
  unfold Cert.Gcn.lsm
  rw [refLsmRows_apply]
  refine congrArg (fun f => rowLsm f q) (funext fun k => ?_)
  rw [addf_apply, bcastRow_apply]

/-! ## From the blocks to the array -/

theorem hz : (![0, 0] : Fin 2 → Nat) = fun _ => 0 := funext fun a => by fin_cases a <;> rfl

/-- The printed index maps over the grid: point `t` has the row block `t` of the input and of the output, and the one
    block of the bias row. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Row `p` of the input's block at point `t` is row `2000 t + p` of the input array. -/
theorem iblk0_apply (c : Dev nD) (t : Fin cfg3.N) (p : Fin 2000) (k : Fin 40) (hr : 2000 * t.val + p.val < 100000) :
    (iblk3 (F := Ideal) V c 0 t : Vec Ideal S2000x40 .f32) (ix2 p k)
      = (V c main_v60 : Vec Ideal S100000x40 .f32) (ix2 (⟨2000 * t.val + p.val, hr⟩ : Fin 100000) k) := by
  obtain ⟨e0, e1, -, -, -, -⟩ := idx_facts t
  unfold iblk3
  rw [View.read_apply]
  show V c main_v60 _ = V c main_v60 _
  congr 1
  funext a
  apply Fin.ext
  match a with
  | ⟨0, _⟩ => show win3_0.index t (0 : Fin 2) * 2000 + 1 * p.val = 2000 * t.val + p.val; omega
  | ⟨1, _⟩ => show win3_0.index t (1 : Fin 2) * 40 + 1 * k.val = k.val; omega

/-- The bias window's block at every point is the bias row. -/
theorem iblk1_apply (c : Dev nD) (t : Fin cfg3.N) (k : Fin 40) :
    (iblk3 (F := Ideal) V c 1 t : Vec Ideal S1x40 .f32) (ix2 (0 : Fin 1) k)
      = (V c main_v61 : Vec Ideal S1x40 .f32) (ix2 (0 : Fin 1) k) := by
  obtain ⟨-, -, e0, e1, -, -⟩ := idx_facts t
  unfold iblk3
  rw [View.read_apply]
  show V c main_v61 _ = V c main_v61 _
  congr 1
  funext a
  apply Fin.ext
  match a with
  | ⟨0, _⟩ => show win3_1.index t (0 : Fin 2) * 1 + 1 * 0 = 0; omega
  | ⟨1, _⟩ => show win3_1.index t (1 : Fin 2) * 40 + 1 * k.val = k.val; omega

/-- What point `t` writes back is block `t` of the whole-array function of the two input arrays. -/
theorem flushed_eq (c : Dev nD) (t : Fin cfg3.N) :
    (dat3 (F := Ideal) V c).flushed 2 t
      = ((cfg3.win 2).blk t).view.read (Elt Ideal) (Cert.Gcn.lsm (F := Ideal) (V c main_v60) (V c main_v61)) := by
  have hN : cfg3.N = 50 := N_3
  have ht : t.val < 50 := hN ▸ t.isLt
  obtain ⟨-, -, -, -, e0, e1⟩ := idx_facts t
  show (cfg3.win 2).cut (grid3.coords t) ((dat3 (F := Ideal) V c).after 2 t) = _
  rw [after3_2]
  unfold out3_2
  rw [View.canon_unit_zero hz]
  simp only [View.ld_unit_zero (S := S2000x40) hz, View.ld_unit_zero (S := S1x40) hz]
  funext j
  obtain ⟨p, q, rfl⟩ : ∃ (p : Fin 2000) (q : Fin 40), j = ix2 p q := ⟨j 0, j 1, eq_ix2 j⟩
  have hr : 2000 * t.val + p.val < 100000 := by have := p.isLt; omega
  have hemb : ((cfg3.win 2).blk t).view.emb (ix2 p q) = ix2 (⟨2000 * t.val + p.val, hr⟩ : Fin 100000) q := by
    funext a
    apply Fin.ext
    match a with
    | ⟨0, _⟩ => show win3_2.index t (0 : Fin 2) * 2000 + 1 * p.val = 2000 * t.val + p.val; omega
    | ⟨1, _⟩ => show win3_2.index t (1 : Fin 2) * 40 + 1 * q.val = q.val; omega
  show k3_pay1 (iblk3 (F := Ideal) V c 0 t) (iblk3 (F := Ideal) V c 1 t) (ix2 p q)
    = Cert.Gcn.lsm (F := Ideal) (V c main_v60) (V c main_v61) (((cfg3.win 2).blk t).view.emb (ix2 p q))
  rw [hemb]
  refine (pay_apply _ _ p q).trans ((congrArg (fun f => rowLsm f q) (funext fun k => ?_)).trans (refLsm_apply _ _ _ q).symm)
  exact congrArg₂ (fun u v : EReal => u + v) (iblk0_apply V c t p k hr) (iblk1_apply V c t k)

/-- An index of the output array is in point `t`'s block iff each coordinate is in the block's range on its axis. -/
theorem mem_blk (t : Fin cfg3.N) (i : S100000x40.Idx) :
    i ∈ ((cfg3.win 2).blk t).view.set ↔ ∀ a : Fin 2, win3_2.index t a * S2000x40.size a ≤ (i a).val ∧ (i a).val < win3_2.index t a * S2000x40.size a + S2000x40.size a := by
  show i ∈ ((View.whole main_v62).slice (win3_2.rect t)).set ↔ _
  rw [View.set_slice_whole, Rect.mem_set_unit]
  exact Iff.rfl

/-- Every index of the output array lies in the block of the point its row falls to: row `r` in block `r / 2000`. -/
theorem cover (i : S100000x40.Idx) : ∃ t : Fin cfg3.N, (cfg3.win 2).flush t = true ∧ i ∈ ((cfg3.win 2).blk t).view.set := by
  have hN : cfg3.N = 50 := N_3
  have hi0 : (i 0).val < 100000 := (i 0).isLt
  have hi1 : (i 1).val < 40 := (i 1).isLt
  let t : Fin cfg3.N := ⟨(i 0).val / 2000, by rw [hN]; omega⟩
  have htv : t.val = (i 0).val / 2000 := rfl
  obtain ⟨-, -, -, -, e0, e1⟩ := idx_facts t
  refine ⟨t, flush3_2 t, ?_⟩
  rw [mem_blk]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 40 ≤ (i 1).val ∧ (i 1).val < win3_2.index t (1 : Fin 2) * 40 + 40; omega

/-- After the region has run from the contents `V`, its output array is the whole-array function of the region's two
    input arrays as it found them. -/
theorem final (c : Dev nD) : (dat3 (F := Ideal) V c).arrAt 2 cfg3.N = Cert.Gcn.lsm (F := Ideal) (V c main_v60) (V c main_v61) :=
  (dat3 (F := Ideal) V c).arrAt_eq_of_cover 2 (Cert.Gcn.lsm (F := Ideal) (V c main_v60) (V c main_v61))
    (fun t _ => flushed_eq V c t) cover

end Cert.KernelIdeal.Region3

end
-- ==== Proof.KernelValue.lean ====
/-
  The kernel program's result, read boundary by boundary.

  The kernel program is five stretches of host operations and four pipelined regions. Started from ANY buffer contents,
  a host stretch leaves in the buffers it writes a piece of the network applied to what it read — the extended edge
  list and the edge weights; one propagation step on 16, resp. 40, features; a bias laid out as one row — and leaves every
  other buffer alone; a region leaves its output array at its whole-array function of its two input arrays and every
  other buffer alone. Walking the boundaries from the launch to the return, each buffer a later item reads holds a piece of
  the network of the six arguments, and the result buffer ends at the whole network: the same function the host program
  computes, whose edge weights, computed once here, are read by both propagation steps.
-/
import proofs.«139665_j74002286510429_1_alg».proof.Proof.Gen.KernelIdeal.Frame
import proofs.«139665_j74002286510429_1_alg».proof.Proof.Spec
import proofs.«139665_j74002286510429_1_alg».proof.Proof.Region0
import proofs.«139665_j74002286510429_1_alg».proof.Proof.Region1
import proofs.«139665_j74002286510429_1_alg».proof.Proof.Region2
import proofs.«139665_j74002286510429_1_alg».proof.Proof.Region3
import Idealize.ShloMosaic.Lib.Pipeline.Value
import Idealize.ShloMosaic.Lib.ValueIdx

noncomputable section

namespace Cert.KernelIdeal.ValueK

open Cert.KernelIdeal Cert.KernelIdeal.Gen
open Idealize.ShloMosaic Idealize.ShloMosaic.TcCoe Idealize.SL.Sem Idealize.ShloMosaic.StableHlo Idealize.ShloMosaic.ValueIdx

/-! ## The host stretches, from any contents -/

section Host

variable {F : FTy → Type} [FloatOps F]

/-- Contents moved to a typed reference's buffer type and back are the contents. -/
theorem ofBuf_toBuf {T : BufTy} (x : TRef sig T) (v : T.Contents (Elt F)) : x.ofBuf (x.toBuf v) = v := by
  obtain ⟨r, h, h1, h2⟩ := x
  subst h
  rfl

/-- A list of `n` numbers reshaped to one row is the list broadcast along axis 1 of a one-row array: both put entry `j`
    at `(0, j)`. -/
theorem row_eq {α : Type} {n : Nat} (b : (⟨1, ![n]⟩ : Shape).Idx → α)
    (h1 : (⟨1, ![n]⟩ : Shape).ShapeCasts ⟨2, ![1, n]⟩) (hd : (⟨1, ![n]⟩ : Shape).BroadcastsInDim ⟨2, ![1, n]⟩ ![1]) :
    shapeCast ⟨2, ![1, n]⟩ b h1 = broadcastInDim ⟨2, ![1, n]⟩ ![1] hd b := by
  funext i
  have h0 : (i 0).val = 0 := by have := (i 0).isLt; have e : (i 0).val < 1 := this; omega
  have e2 := shapeCast_apply b h1 i (ix1 (i 1 : Fin n)) (by
    rw [Shape.rowMajor_val_two, Shape.rowMajor_val_one]; show (i 1).val = (i 0).val * n + (i 1).val; rw [h0]; omega)
  have e3 := broadcastInDim_apply ![1] hd b i (ix1 (i 1 : Fin n)) (by
    intro a
    match a with
    | ⟨0, _⟩ =>
      show (i 1).val = if n = 1 then 0 else (i 1).val
      split
      · have := (i 1).isLt; have e : (i 1).val < n := this; omega
      · rfl)
  exact e2.trans e3.symm

variable (V : Valuation τ sig (Elt F))

/-- The first three stretches: the extended edge list and the edge weights. -/
theorem H0_v5 : after hostOps0_2 (after hostOps0_1 (after hostOps0 V)) (Proc.devRef .tc main_v5) = Cert.Gcn.srcs (V (Proc.devRef .tc main_arg1)) := by
  after_results_simp <;> (try simp only [ofBuf_toBuf]) <;> rfl
theorem H0_v6 : after hostOps0_2 (after hostOps0_1 (after hostOps0 V)) (Proc.devRef .tc main_v6) = Cert.Gcn.dsts (V (Proc.devRef .tc main_arg1)) := by
  after_results_simp <;> (try simp only [ofBuf_toBuf]) <;> rfl
theorem H0_v30 : after hostOps0_2 (after hostOps0_1 (after hostOps0 V)) (Proc.devRef .tc main_v30) = Cert.Gcn.norm (V (Proc.devRef .tc main_arg1)) := by
  after_results_simp <;> (try simp only [ofBuf_toBuf]) <;> rfl
theorem H0_arg0 : after hostOps0_2 (after hostOps0_1 (after hostOps0 V)) (Proc.devRef .tc main_arg0) = V (Proc.devRef .tc main_arg0) := by after_results_simp
theorem H0_arg2 : after hostOps0_2 (after hostOps0_1 (after hostOps0 V)) (Proc.devRef .tc main_arg2) = V (Proc.devRef .tc main_arg2) := by after_results_simp
theorem H0_arg3 : after hostOps0_2 (after hostOps0_1 (after hostOps0 V)) (Proc.devRef .tc main_arg3) = V (Proc.devRef .tc main_arg3) := by after_results_simp
theorem H0_arg4 : after hostOps0_2 (after hostOps0_1 (after hostOps0 V)) (Proc.devRef .tc main_arg4) = V (Proc.devRef .tc main_arg4) := by after_results_simp
theorem H0_arg5 : after hostOps0_2 (after hostOps0_1 (after hostOps0 V)) (Proc.devRef .tc main_arg5) = V (Proc.devRef .tc main_arg5) := by after_results_simp

/-- The fourth stretch: one propagation step on 16 features, and the first bias as one row. -/
theorem H1_v44 : after hostOps1 V (Proc.devRef .tc main_v44)
    = Cert.Gcn.prop16 (V (Proc.devRef .tc main_v30)) (V (Proc.devRef .tc main_v5)) (V (Proc.devRef .tc main_v6)) (V (Proc.devRef .tc main_v31)) := by
  after_results_simp <;> (try simp only [ofBuf_toBuf]) <;> rfl
theorem H1_v45 : after hostOps1 V (Proc.devRef .tc main_v45) = Cert.Gcn.row16 (V (Proc.devRef .tc main_arg3)) := by
  after_results_simp
  exact row_eq _ _ _
theorem H1_v30 : after hostOps1 V (Proc.devRef .tc main_v30) = V (Proc.devRef .tc main_v30) := by after_results_simp
theorem H1_v5 : after hostOps1 V (Proc.devRef .tc main_v5) = V (Proc.devRef .tc main_v5) := by after_results_simp
theorem H1_v6 : after hostOps1 V (Proc.devRef .tc main_v6) = V (Proc.devRef .tc main_v6) := by after_results_simp
theorem H1_arg4 : after hostOps1 V (Proc.devRef .tc main_arg4) = V (Proc.devRef .tc main_arg4) := by after_results_simp
theorem H1_arg5 : after hostOps1 V (Proc.devRef .tc main_arg5) = V (Proc.devRef .tc main_arg5) := by after_results_simp

/-- The fifth stretch: one propagation step on 40 features, and the second bias as one row. -/
theorem H3_v60 : after hostOps3 V (Proc.devRef .tc main_v60)
    = Cert.Gcn.prop40 (V (Proc.devRef .tc main_v30)) (V (Proc.devRef .tc main_v5)) (V (Proc.devRef .tc main_v6)) (V (Proc.devRef .tc main_v47)) := by
  after_results_simp <;> (try simp only [ofBuf_toBuf]) <;> rfl
theorem H3_v61 : after hostOps3 V (Proc.devRef .tc main_v61) = Cert.Gcn.row40 (V (Proc.devRef .tc main_arg5)) := by
  after_results_simp
  exact row_eq _ _ _

end Host

/-! ## The boundaries, at the ideal values -/

section Chain

variable (m : (ℓ : Loc nD τ sig) → Buf (Elt Ideal) ℓ) (ρ : Dev nD → PrngReg) (c : Dev nD)

/-! ### Entering the first region: the edge list, the weights, the arguments -/

theorem at3_v30 : W3 m ρ c (Proc.devRef .tc main_v30) = Cert.Gcn.norm (m ((c : Thread nD τ).loc main_arg1)) := H0_v30 (W0 m ρ c)
theorem at3_v5 : W3 m ρ c (Proc.devRef .tc main_v5) = Cert.Gcn.srcs (m ((c : Thread nD τ).loc main_arg1)) := H0_v5 (W0 m ρ c)
theorem at3_v6 : W3 m ρ c (Proc.devRef .tc main_v6) = Cert.Gcn.dsts (m ((c : Thread nD τ).loc main_arg1)) := H0_v6 (W0 m ρ c)
theorem at3_arg0 : W3 m ρ c (Proc.devRef .tc main_arg0) = m ((c : Thread nD τ).loc main_arg0) := H0_arg0 (W0 m ρ c)
theorem at3_arg2 : W3 m ρ c (Proc.devRef .tc main_arg2) = m ((c : Thread nD τ).loc main_arg2) := H0_arg2 (W0 m ρ c)
theorem at3_arg3 : W3 m ρ c (Proc.devRef .tc main_arg3) = m ((c : Thread nD τ).loc main_arg3) := H0_arg3 (W0 m ρ c)
theorem at3_arg4 : W3 m ρ c (Proc.devRef .tc main_arg4) = m ((c : Thread nD τ).loc main_arg4) := H0_arg4 (W0 m ρ c)
theorem at3_arg5 : W3 m ρ c (Proc.devRef .tc main_arg5) = m ((c : Thread nD τ).loc main_arg5) := H0_arg5 (W0 m ρ c)

/-! ### Leaving the first region: the first product -/

theorem at4_v31 : W4 m ρ c (Proc.devRef .tc main_v31) = Cert.Gcn.lin1 (m ((c : Thread nD τ).loc main_arg0)) (m ((c : Thread nD τ).loc main_arg2)) :=
  (W4_arr m ρ c 2).trans ((Region0.final (V3 m ρ) c).trans (congrArg₂ Cert.Gcn.lin1 (at3_arg0 m ρ c) (at3_arg2 m ρ c)))
theorem at4_v30 : W4 m ρ c (Proc.devRef .tc main_v30) = Cert.Gcn.norm (m ((c : Thread nD τ).loc main_arg1)) := (W4_of_ne m ρ c main_v30 (by decide)).trans (at3_v30 m ρ c)
theorem at4_v5 : W4 m ρ c (Proc.devRef .tc main_v5) = Cert.Gcn.srcs (m ((c : Thread nD τ).loc main_arg1)) := (W4_of_ne m ρ c main_v5 (by decide)).trans (at3_v5 m ρ c)
theorem at4_v6 : W4 m ρ c (Proc.devRef .tc main_v6) = Cert.Gcn.dsts (m ((c : Thread nD τ).loc main_arg1)) := (W4_of_ne m ρ c main_v6 (by decide)).trans (at3_v6 m ρ c)
theorem at4_arg3 : W4 m ρ c (Proc.devRef .tc main_arg3) = m ((c : Thread nD τ).loc main_arg3) := (W4_of_ne m ρ c main_arg3 (by decide)).trans (at3_arg3 m ρ c)
theorem at4_arg4 : W4 m ρ c (Proc.devRef .tc main_arg4) = m ((c : Thread nD τ).loc main_arg4) := (W4_of_ne m ρ c main_arg4 (by decide)).trans (at3_arg4 m ρ c)
theorem at4_arg5 : W4 m ρ c (Proc.devRef .tc main_arg5) = m ((c : Thread nD τ).loc main_arg5) := (W4_of_ne m ρ c main_arg5 (by decide)).trans (at3_arg5 m ρ c)

/-! ### Entering the second region: the first propagation step, the first bias as a row -/

theorem at5_v44 : W5 m ρ c (Proc.devRef .tc main_v44) = Cert.Gcn.prop16 (Cert.Gcn.norm (m ((c : Thread nD τ).loc main_arg1))) (Cert.Gcn.srcs (m ((c : Thread nD τ).loc main_arg1))) (Cert.Gcn.dsts (m ((c : Thread nD τ).loc main_arg1))) (Cert.Gcn.lin1 (m ((c : Thread nD τ).loc main_arg0)) (m ((c : Thread nD τ).loc main_arg2))) := by
  show after hostOps1 (W4 m ρ c) (Proc.devRef .tc main_v44) = _
  rw [H1_v44, at4_v30, at4_v5, at4_v6, at4_v31]
theorem at5_v45 : W5 m ρ c (Proc.devRef .tc main_v45) = Cert.Gcn.row16 (m ((c : Thread nD τ).loc main_arg3)) := by
  show after hostOps1 (W4 m ρ c) (Proc.devRef .tc main_v45) = _
  rw [H1_v45, at4_arg3]
theorem at5_v30 : W5 m ρ c (Proc.devRef .tc main_v30) = Cert.Gcn.norm (m ((c : Thread nD τ).loc main_arg1)) := by
  show after hostOps1 (W4 m ρ c) (Proc.devRef .tc main_v30) = _
  rw [H1_v30, at4_v30]
theorem at5_v5 : W5 m ρ c (Proc.devRef .tc main_v5) = Cert.Gcn.srcs (m ((c : Thread nD τ).loc main_arg1)) := by
  show after hostOps1 (W4 m ρ c) (Proc.devRef .tc main_v5) = _
  rw [H1_v5, at4_v5]
theorem at5_v6 : W5 m ρ c (Proc.devRef .tc main_v6) = Cert.Gcn.dsts (m ((c : Thread nD τ).loc main_arg1)) := by
  show after hostOps1 (W4 m ρ c) (Proc.devRef .tc main_v6) = _
  rw [H1_v6, at4_v6]
theorem at5_arg4 : W5 m ρ c (Proc.devRef .tc main_arg4) = m ((c : Thread nD τ).loc main_arg4) := by
  show after hostOps1 (W4 m ρ c) (Proc.devRef .tc main_arg4) = _
  rw [H1_arg4, at4_arg4]
theorem at5_arg5 : W5 m ρ c (Proc.devRef .tc main_arg5) = m ((c : Thread nD τ).loc main_arg5) := by
  show after hostOps1 (W4 m ρ c) (Proc.devRef .tc main_arg5) = _
  rw [H1_arg5, at4_arg5]

/-! ### Leaving the second region: the hidden features -/

theorem at6_v46 : W6 m ρ c (Proc.devRef .tc main_v46) = Cert.Gcn.act1 (Cert.Gcn.prop16 (Cert.Gcn.norm (m ((c : Thread nD τ).loc main_arg1))) (Cert.Gcn.srcs (m ((c : Thread nD τ).loc main_arg1))) (Cert.Gcn.dsts (m ((c : Thread nD τ).loc main_arg1))) (Cert.Gcn.lin1 (m ((c : Thread nD τ).loc main_arg0)) (m ((c : Thread nD τ).loc main_arg2)))) (Cert.Gcn.row16 (m ((c : Thread nD τ).loc main_arg3))) :=
  (W6_arr m ρ c 2).trans ((Region1.final (V5 m ρ) c).trans (congrArg₂ Cert.Gcn.act1 (at5_v44 m ρ c) (at5_v45 m ρ c)))
theorem at6_v30 : W6 m ρ c (Proc.devRef .tc main_v30) = Cert.Gcn.norm (m ((c : Thread nD τ).loc main_arg1)) := (W6_of_ne m ρ c main_v30 (by decide)).trans (at5_v30 m ρ c)
theorem at6_v5 : W6 m ρ c (Proc.devRef .tc main_v5) = Cert.Gcn.srcs (m ((c : Thread nD τ).loc main_arg1)) := (W6_of_ne m ρ c main_v5 (by decide)).trans (at5_v5 m ρ c)
theorem at6_v6 : W6 m ρ c (Proc.devRef .tc main_v6) = Cert.Gcn.dsts (m ((c : Thread nD τ).loc main_arg1)) := (W6_of_ne m ρ c main_v6 (by decide)).trans (at5_v6 m ρ c)
theorem at6_arg4 : W6 m ρ c (Proc.devRef .tc main_arg4) = m ((c : Thread nD τ).loc main_arg4) := (W6_of_ne m ρ c main_arg4 (by decide)).trans (at5_arg4 m ρ c)
theorem at6_arg5 : W6 m ρ c (Proc.devRef .tc main_arg5) = m ((c : Thread nD τ).loc main_arg5) := (W6_of_ne m ρ c main_arg5 (by decide)).trans (at5_arg5 m ρ c)

/-! ### Leaving the third region: the second product -/

theorem at7_v47 : W7 m ρ c (Proc.devRef .tc main_v47) = Cert.Gcn.lin2 (Cert.Gcn.act1 (Cert.Gcn.prop16 (Cert.Gcn.norm (m ((c : Thread nD τ).loc main_arg1))) (Cert.Gcn.srcs (m ((c : Thread nD τ).loc main_arg1))) (Cert.Gcn.dsts (m ((c : Thread nD τ).loc main_arg1))) (Cert.Gcn.lin1 (m ((c : Thread nD τ).loc main_arg0)) (m ((c : Thread nD τ).loc main_arg2)))) (Cert.Gcn.row16 (m ((c : Thread nD τ).loc main_arg3)))) (m ((c : Thread nD τ).loc main_arg4)) :=
  (W7_arr m ρ c 2).trans ((Region2.final (V6 m ρ) c).trans (congrArg₂ Cert.Gcn.lin2 (at6_v46 m ρ c) (at6_arg4 m ρ c)))
theorem at7_v30 : W7 m ρ c (Proc.devRef .tc main_v30) = Cert.Gcn.norm (m ((c : Thread nD τ).loc main_arg1)) := (W7_of_ne m ρ c main_v30 (by decide)).trans (at6_v30 m ρ c)
theorem at7_v5 : W7 m ρ c (Proc.devRef .tc main_v5) = Cert.Gcn.srcs (m ((c : Thread nD τ).loc main_arg1)) := (W7_of_ne m ρ c main_v5 (by decide)).trans (at6_v5 m ρ c)
theorem at7_v6 : W7 m ρ c (Proc.devRef .tc main_v6) = Cert.Gcn.dsts (m ((c : Thread nD τ).loc main_arg1)) := (W7_of_ne m ρ c main_v6 (by decide)).trans (at6_v6 m ρ c)
theorem at7_arg5 : W7 m ρ c (Proc.devRef .tc main_arg5) = m ((c : Thread nD τ).loc main_arg5) := (W7_of_ne m ρ c main_arg5 (by decide)).trans (at6_arg5 m ρ c)

/-! ### Entering the fourth region: the second propagation step, the second bias as a row -/

theorem at8_v60 : W8 m ρ c (Proc.devRef .tc main_v60) = Cert.Gcn.prop40 (Cert.Gcn.norm (m ((c : Thread nD τ).loc main_arg1))) (Cert.Gcn.srcs (m ((c : Thread nD τ).loc main_arg1))) (Cert.Gcn.dsts (m ((c : Thread nD τ).loc main_arg1))) (Cert.Gcn.lin2 (Cert.Gcn.act1 (Cert.Gcn.prop16 (Cert.Gcn.norm (m ((c : Thread nD τ).loc main_arg1))) (Cert.Gcn.srcs (m ((c : Thread nD τ).loc main_arg1))) (Cert.Gcn.dsts (m ((c : Thread nD τ).loc main_arg1))) (Cert.Gcn.lin1 (m ((c : Thread nD τ).loc main_arg0)) (m ((c : Thread nD τ).loc main_arg2)))) (Cert.Gcn.row16 (m ((c : Thread nD τ).loc main_arg3)))) (m ((c : Thread nD τ).loc main_arg4))) := by
  show after hostOps3 (W7 m ρ c) (Proc.devRef .tc main_v60) = _
  rw [H3_v60, at7_v30, at7_v5, at7_v6, at7_v47]
theorem at8_v61 : W8 m ρ c (Proc.devRef .tc main_v61) = Cert.Gcn.row40 (m ((c : Thread nD τ).loc main_arg5)) := by
  show after hostOps3 (W7 m ρ c) (Proc.devRef .tc main_v61) = _
  rw [H3_v61, at7_arg5]

/-! ### The return -/

/-- The result buffer at the last boundary: the network of the six arguments. -/
theorem result : W9 m ρ c (Proc.devRef .tc main_v62)
    = Cert.Gcn.gcn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W9_arr m ρ c 2).trans ((Region3.final (V8 m ρ) c).trans (congrArg₂ Cert.Gcn.lsm (at8_v60 m ρ c) (at8_v61 m ρ c)))

end Chain

end Cert.KernelIdeal.ValueK

end
-- ==== Proof.RefValue.lean ====
/-
  The host program's run, read in four stretches.

  The host program is 132 array operations in a row. Cut into four stretches — the extended edge list and the edge
  weights; the first layer (product, propagation, bias, clamp); the edge weights a second time; the second layer
  (product, propagation, bias, log-softmax of each row) — each stretch, started from ANY buffer contents, leaves in
  the buffers it writes the matching piece of the network applied to what it read, and leaves every other buffer alone.
  Chained from the launch contents, the result buffer ends at the whole network of the six arguments.
-/
import proofs.«139665_j74002286510429_1_alg».proof.Defs
import proofs.«139665_j74002286510429_1_alg».proof.Proof.RefRun
import proofs.«139665_j74002286510429_1_alg».proof.Proof.Spec
import Idealize.ShloMosaic.Lib.Pipeline.Frame

noncomputable section

namespace Cert.ReferenceIdeal.Staged

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F]

/-- Contents moved to a typed reference's buffer type and back are the contents. -/
theorem ofBuf_toBuf {T : BufTy} (x : TRef sig T) (v : T.Contents (Elt F)) : x.ofBuf (x.toBuf v) = v := by
  obtain ⟨r, h, h1, h2⟩ := x
  subst h
  rfl

/-- The extended edge list and the edge weights. -/
abbrev opsA : List (HloOp τ sig (Elt F)) :=
  [ unary main_arg1 main_v0 ((extractStridedSlice S1x3200000 ![0, 0] · slices_S2x3200000_S1x3200000_0_0) : (⟨S2x3200000, .i32⟩ : BufTy).Contents (Elt F) → (⟨S1x3200000, .i32⟩ : BufTy).Contents (Elt F)),
    reshape main_v0 main_v1 rfl shapeCasts_S1x3200000_S3200000,
    unary main_arg1 main_v2 ((extractStridedSlice S1x3200000 ![1, 0] · slices_S2x3200000_S1x3200000_1_0) : (⟨S2x3200000, .i32⟩ : BufTy).Contents (Elt F) → (⟨S1x3200000, .i32⟩ : BufTy).Contents (Elt F)),
    reshape main_v2 main_v3 rfl shapeCasts_S1x3200000_S3200000,
    nullary main_v4 (iotaInDim S100000 32 0),
    binary main_v1 main_v4 main_v5 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    binary main_v3 main_v4 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v7 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S3300000x1 ![0] bcast_S3300000_S3300000x1_0 : (⟨S3300000, .i32⟩ : BufTy).Contents (Elt F) → (⟨S3300000x1, .i32⟩ : BufTy).Contents (Elt F)),
    ternary main_v8 main_v9 main_v7 main_v10 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf (F := F) .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    unary main_cst_2 main_v14 (broadcastInDim S100000 ![] bcast_S_S100000 : (⟨S_, .f32⟩ : BufTy).Contents (Elt F) → (⟨S100000, .f32⟩ : BufTy).Contents (Elt F)),
    TRef.ternary (TRef.of (T := ⟨S100000, .i1⟩) main_v12) (TRef.of (T := ⟨S100000, .f32⟩) main_v13) (TRef.of (T := ⟨S100000, .f32⟩) main_v14) (TRef.of (T := ⟨S100000, .f32⟩) main_v15) select,
    nullary main_c (constantI S_ 32 0#32),
    unary main_c main_v16 (broadcastInDim S3300000 ![] bcast_S_S3300000 : (⟨S_, .i32⟩ : BufTy).Contents (Elt F) → (⟨S3300000, .i32⟩ : BufTy).Contents (Elt F)),
    binary main_v5 main_v16 main_v17 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v18 (broadcastInDim S3300000 ![] bcast_S_S3300000 : (⟨S_, .i32⟩ : BufTy).Contents (Elt F) → (⟨S3300000, .i32⟩ : BufTy).Contents (Elt F)),
    binary main_v5 main_v18 main_v19 (addi : (⟨S3300000, .i32⟩ : BufTy).Contents (Elt F) → (⟨S3300000, .i32⟩ : BufTy).Contents (Elt F) → (⟨S3300000, .i32⟩ : BufTy).Contents (Elt F)),
    ternary main_v17 main_v19 main_v5 main_v20 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v20 main_v21 (broadcastInDim S3300000x1 ![0] bcast_S3300000_S3300000x1_0 : (⟨S3300000, .i32⟩ : BufTy).Contents (Elt F) → (⟨S3300000x1, .i32⟩ : BufTy).Contents (Elt F)),
    binary main_v15 main_v21 main_v22 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_4 (constantI S_ 32 0#32),
    unary main_c_4 main_v23 (broadcastInDim S3300000 ![] bcast_S_S3300000 : (⟨S_, .i32⟩ : BufTy).Contents (Elt F) → (⟨S3300000, .i32⟩ : BufTy).Contents (Elt F)),
    binary main_v6 main_v23 main_v24 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v25 (broadcastInDim S3300000 ![] bcast_S_S3300000 : (⟨S_, .i32⟩ : BufTy).Contents (Elt F) → (⟨S3300000, .i32⟩ : BufTy).Contents (Elt F)),
    binary main_v6 main_v25 main_v26 (addi : (⟨S3300000, .i32⟩ : BufTy).Contents (Elt F) → (⟨S3300000, .i32⟩ : BufTy).Contents (Elt F) → (⟨S3300000, .i32⟩ : BufTy).Contents (Elt F)),
    ternary main_v24 main_v26 main_v6 main_v27 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v27 main_v28 (broadcastInDim S3300000x1 ![0] bcast_S3300000_S3300000x1_0 : (⟨S3300000, .i32⟩ : BufTy).Contents (Elt F) → (⟨S3300000x1, .i32⟩ : BufTy).Contents (Elt F)),
    binary main_v15 main_v28 main_v29 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v22 main_v29 main_v30 (mulf : (⟨S3300000, .f32⟩ : BufTy).Contents (Elt F) → (⟨S3300000, .f32⟩ : BufTy).Contents (Elt F) → (⟨S3300000, .f32⟩ : BufTy).Contents (Elt F)) ]

/-- The first layer: product, propagation, bias, clamp. -/
abbrev opsB : List (HloOp τ sig (Elt F)) :=
  [ binary main_arg0 main_arg2 main_v31 ((fun l r => Host.dotGeneral dot_S100000x512_S512x16_S100000x16_1_0_0_1_n_n none l r) : (⟨S100000x512, .f32⟩ : BufTy).Contents (Elt F) → (⟨S512x16, .f32⟩ : BufTy).Contents (Elt F) → (⟨S100000x16, .f32⟩ : BufTy).Contents (Elt F)),
    nullary main_c_6 (constantI S_ 32 0#32),
    unary main_c_6 main_v32 (broadcastInDim S3300000 ![] bcast_S_S3300000 : (⟨S_, .i32⟩ : BufTy).Contents (Elt F) → (⟨S3300000, .i32⟩ : BufTy).Contents (Elt F)),
    binary main_v5 main_v32 main_v33 (cmpi .slt : (⟨S3300000, .i32⟩ : BufTy).Contents (Elt F) → (⟨S3300000, .i32⟩ : BufTy).Contents (Elt F) → (⟨S3300000, .i1⟩ : BufTy).Contents (Elt F)),
    nullary main_c_7 (constantI S_ 32 100000#32),
    unary main_c_7 main_v34 (broadcastInDim S3300000 ![] bcast_S_S3300000 : (⟨S_, .i32⟩ : BufTy).Contents (Elt F) → (⟨S3300000, .i32⟩ : BufTy).Contents (Elt F)),
    binary main_v5 main_v34 main_v35 (addi : (⟨S3300000, .i32⟩ : BufTy).Contents (Elt F) → (⟨S3300000, .i32⟩ : BufTy).Contents (Elt F) → (⟨S3300000, .i32⟩ : BufTy).Contents (Elt F)),
    ternary main_v33 main_v35 main_v5 main_v36 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v36 main_v37 (broadcastInDim S3300000x1 ![0] bcast_S3300000_S3300000x1_0 : (⟨S3300000, .i32⟩ : BufTy).Contents (Elt F) → (⟨S3300000x1, .i32⟩ : BufTy).Contents (Elt F)),
    binary main_v31 main_v37 main_v38 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v30 main_v39 (broadcastInDim S3300000x1 ![0] bcast_S3300000_S3300000x1_0 : (⟨S3300000, .f32⟩ : BufTy).Contents (Elt F) → (⟨S3300000x1, .f32⟩ : BufTy).Contents (Elt F)),
    unary main_v39 main_v40 (broadcastInDim S3300000x16 ![0, 1] bcast_S3300000x1_S3300000x16_0_1 : (⟨S3300000x1, .f32⟩ : BufTy).Contents (Elt F) → (⟨S3300000x16, .f32⟩ : BufTy).Contents (Elt F)),
    binary main_v38 main_v40 main_v41 (mulf : (⟨S3300000x16, .f32⟩ : BufTy).Contents (Elt F) → (⟨S3300000x16, .f32⟩ : BufTy).Contents (Elt F) → (⟨S3300000x16, .f32⟩ : BufTy).Contents (Elt F)),
    nullary main_cst_8 (constant S_ .f32 0x00000000#32),
    unary main_cst_8 main_v42 (broadcastInDim S100000x16 ![] bcast_S_S100000x16 : (⟨S_, .f32⟩ : BufTy).Contents (Elt F) → (⟨S100000x16, .f32⟩ : BufTy).Contents (Elt F)),
    unary main_v6 main_v43 (broadcastInDim S3300000x1 ![0] bcast_S3300000_S3300000x1_0 : (⟨S3300000, .i32⟩ : BufTy).Contents (Elt F) → (⟨S3300000x1, .i32⟩ : BufTy).Contents (Elt F)),
    ternary main_v42 main_v43 main_v41 main_v44 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)),
    unary main_arg3 main_v45 (broadcastInDim S1x16 ![1] bcast_S16_S1x16_1 : (⟨S16, .f32⟩ : BufTy).Contents (Elt F) → (⟨S1x16, .f32⟩ : BufTy).Contents (Elt F)),
    unary main_v45 main_v46 (broadcastInDim S100000x16 ![0, 1] bcast_S1x16_S100000x16_0_1 : (⟨S1x16, .f32⟩ : BufTy).Contents (Elt F) → (⟨S100000x16, .f32⟩ : BufTy).Contents (Elt F)),
    binary main_v44 main_v46 main_v47 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x16, .f32⟩) main_call1_v0) (broadcastInDim S100000x16 ![] bcast_S_S100000x16),
    TRef.binary (TRef.of (T := ⟨S100000x16, .f32⟩) main_v47) (TRef.of (T := ⟨S100000x16, .f32⟩) main_call1_v0) (TRef.of (T := ⟨S100000x16, .f32⟩) main_v48) maximumf ]

/-- The extended edge list and the edge weights, computed again from the two rows of the edge list. -/
abbrev opsC : List (HloOp τ sig (Elt F)) :=
  [ nullary main_v49 (iotaInDim S100000 32 0),
    binary main_v1 main_v49 main_v50 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    binary main_v3 main_v49 main_v51 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst_9 (constant S_ .f32 0x3F800000#32),
    unary main_cst_9 main_v52 (broadcastInDim S3300000 ![] bcast_S_S3300000 : (⟨S_, .f32⟩ : BufTy).Contents (Elt F) → (⟨S3300000, .f32⟩ : BufTy).Contents (Elt F)),
    nullary main_cst_10 (constant S_ .f32 0x00000000#32),
    unary main_cst_10 main_v53 (broadcastInDim S100000 ![] bcast_S_S100000 : (⟨S_, .f32⟩ : BufTy).Contents (Elt F) → (⟨S100000, .f32⟩ : BufTy).Contents (Elt F)),
    unary main_v51 main_v54 (broadcastInDim S3300000x1 ![0] bcast_S3300000_S3300000x1_0 : (⟨S3300000, .i32⟩ : BufTy).Contents (Elt F) → (⟨S3300000x1, .i32⟩ : BufTy).Contents (Elt F)),
    ternary main_v53 main_v54 main_v52 main_v55 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_11 (constant S_ .f32 0x00000000#32),
    unary main_cst_11 main_v56 (broadcastInDim S100000 ![] bcast_S_S100000 : (⟨S_, .f32⟩ : BufTy).Contents (Elt F) → (⟨S100000, .f32⟩ : BufTy).Contents (Elt F)),
    binary main_v55 main_v56 main_v57 (cmpf (F := F) .ogt : (⟨S100000, .f32⟩ : BufTy).Contents (Elt F) → (⟨S100000, .f32⟩ : BufTy).Contents (Elt F) → (⟨S100000, .i1⟩ : BufTy).Contents (Elt F)),
    unary main_v55 main_v58 (Host.rsqrt : (⟨S100000, .f32⟩ : BufTy).Contents (Elt F) → (⟨S100000, .f32⟩ : BufTy).Contents (Elt F)),
    nullary main_cst_12 (constant S_ .f32 0x00000000#32),
    unary main_cst_12 main_v59 (broadcastInDim S100000 ![] bcast_S_S100000 : (⟨S_, .f32⟩ : BufTy).Contents (Elt F) → (⟨S100000, .f32⟩ : BufTy).Contents (Elt F)),
    TRef.ternary (TRef.of (T := ⟨S100000, .i1⟩) main_v57) (TRef.of (T := ⟨S100000, .f32⟩) main_v58) (TRef.of (T := ⟨S100000, .f32⟩) main_v59) (TRef.of (T := ⟨S100000, .f32⟩) main_v60) select,
    nullary main_c_13 (constantI S_ 32 0#32),
    unary main_c_13 main_v61 (broadcastInDim S3300000 ![] bcast_S_S3300000 : (⟨S_, .i32⟩ : BufTy).Contents (Elt F) → (⟨S3300000, .i32⟩ : BufTy).Contents (Elt F)),
    binary main_v50 main_v61 main_v62 (cmpi .slt : (⟨S3300000, .i32⟩ : BufTy).Contents (Elt F) → (⟨S3300000, .i32⟩ : BufTy).Contents (Elt F) → (⟨S3300000, .i1⟩ : BufTy).Contents (Elt F)),
    nullary main_c_14 (constantI S_ 32 100000#32),
    unary main_c_14 main_v63 (broadcastInDim S3300000 ![] bcast_S_S3300000 : (⟨S_, .i32⟩ : BufTy).Contents (Elt F) → (⟨S3300000, .i32⟩ : BufTy).Contents (Elt F)),
    binary main_v50 main_v63 main_v64 (addi : (⟨S3300000, .i32⟩ : BufTy).Contents (Elt F) → (⟨S3300000, .i32⟩ : BufTy).Contents (Elt F) → (⟨S3300000, .i32⟩ : BufTy).Contents (Elt F)),
    ternary main_v62 main_v64 main_v50 main_v65 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v65 main_v66 (broadcastInDim S3300000x1 ![0] bcast_S3300000_S3300000x1_0 : (⟨S3300000, .i32⟩ : BufTy).Contents (Elt F) → (⟨S3300000x1, .i32⟩ : BufTy).Contents (Elt F)),
    binary main_v60 main_v66 main_v67 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_15 (constantI S_ 32 0#32),
    unary main_c_15 main_v68 (broadcastInDim S3300000 ![] bcast_S_S3300000 : (⟨S_, .i32⟩ : BufTy).Contents (Elt F) → (⟨S3300000, .i32⟩ : BufTy).Contents (Elt F)),
    binary main_v51 main_v68 main_v69 (cmpi .slt : (⟨S3300000, .i32⟩ : BufTy).Contents (Elt F) → (⟨S3300000, .i32⟩ : BufTy).Contents (Elt F) → (⟨S3300000, .i1⟩ : BufTy).Contents (Elt F)),
    nullary main_c_16 (constantI S_ 32 100000#32),
    unary main_c_16 main_v70 (broadcastInDim S3300000 ![] bcast_S_S3300000 : (⟨S_, .i32⟩ : BufTy).Contents (Elt F) → (⟨S3300000, .i32⟩ : BufTy).Contents (Elt F)),
    binary main_v51 main_v70 main_v71 (addi : (⟨S3300000, .i32⟩ : BufTy).Contents (Elt F) → (⟨S3300000, .i32⟩ : BufTy).Contents (Elt F) → (⟨S3300000, .i32⟩ : BufTy).Contents (Elt F)),
    ternary main_v69 main_v71 main_v51 main_v72 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v72 main_v73 (broadcastInDim S3300000x1 ![0] bcast_S3300000_S3300000x1_0 : (⟨S3300000, .i32⟩ : BufTy).Contents (Elt F) → (⟨S3300000x1, .i32⟩ : BufTy).Contents (Elt F)),
    binary main_v60 main_v73 main_v74 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v67 main_v74 main_v75 (mulf : (⟨S3300000, .f32⟩ : BufTy).Contents (Elt F) → (⟨S3300000, .f32⟩ : BufTy).Contents (Elt F) → (⟨S3300000, .f32⟩ : BufTy).Contents (Elt F)) ]

/-- The second layer: product, propagation, bias, and the log-softmax of each row. -/
abbrev opsD : List (HloOp τ sig (Elt F)) :=
  [ binary main_v48 main_arg4 main_v76 ((fun l r => Host.dotGeneral dot_S100000x16_S16x40_S100000x40_1_0_0_1_n_n none l r) : (⟨S100000x16, .f32⟩ : BufTy).Contents (Elt F) → (⟨S16x40, .f32⟩ : BufTy).Contents (Elt F) → (⟨S100000x40, .f32⟩ : BufTy).Contents (Elt F)),
    nullary main_c_17 (constantI S_ 32 0#32),
    unary main_c_17 main_v77 (broadcastInDim S3300000 ![] bcast_S_S3300000 : (⟨S_, .i32⟩ : BufTy).Contents (Elt F) → (⟨S3300000, .i32⟩ : BufTy).Contents (Elt F)),
    binary main_v50 main_v77 main_v78 (cmpi .slt : (⟨S3300000, .i32⟩ : BufTy).Contents (Elt F) → (⟨S3300000, .i32⟩ : BufTy).Contents (Elt F) → (⟨S3300000, .i1⟩ : BufTy).Contents (Elt F)),
    nullary main_c_18 (constantI S_ 32 100000#32),
    unary main_c_18 main_v79 (broadcastInDim S3300000 ![] bcast_S_S3300000 : (⟨S_, .i32⟩ : BufTy).Contents (Elt F) → (⟨S3300000, .i32⟩ : BufTy).Contents (Elt F)),
    binary main_v50 main_v79 main_v80 (addi : (⟨S3300000, .i32⟩ : BufTy).Contents (Elt F) → (⟨S3300000, .i32⟩ : BufTy).Contents (Elt F) → (⟨S3300000, .i32⟩ : BufTy).Contents (Elt F)),
    ternary main_v78 main_v80 main_v50 main_v81 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v81 main_v82 (broadcastInDim S3300000x1 ![0] bcast_S3300000_S3300000x1_0 : (⟨S3300000, .i32⟩ : BufTy).Contents (Elt F) → (⟨S3300000x1, .i32⟩ : BufTy).Contents (Elt F)),
    binary main_v76 main_v82 main_v83 ((fun x i => Host.gather gather_S100000x40_S3300000x1_S3300000x40_1_0_n_n_0_1_140 x i) : (⟨S100000x40, .f32⟩ : BufTy).Contents (Elt F) → (⟨S3300000x1, .i32⟩ : BufTy).Contents (Elt F) → (⟨S3300000x40, .f32⟩ : BufTy).Contents (Elt F)),
    unary main_v75 main_v84 (broadcastInDim S3300000x1 ![0] bcast_S3300000_S3300000x1_0 : (⟨S3300000, .f32⟩ : BufTy).Contents (Elt F) → (⟨S3300000x1, .f32⟩ : BufTy).Contents (Elt F)),
    unary main_v84 main_v85 (broadcastInDim S3300000x40 ![0, 1] bcast_S3300000x1_S3300000x40_0_1 : (⟨S3300000x1, .f32⟩ : BufTy).Contents (Elt F) → (⟨S3300000x40, .f32⟩ : BufTy).Contents (Elt F)),
    binary main_v83 main_v85 main_v86 (mulf : (⟨S3300000x40, .f32⟩ : BufTy).Contents (Elt F) → (⟨S3300000x40, .f32⟩ : BufTy).Contents (Elt F) → (⟨S3300000x40, .f32⟩ : BufTy).Contents (Elt F)),
    nullary main_cst_19 (constant S_ .f32 0x00000000#32),
    unary main_cst_19 main_v87 (broadcastInDim S100000x40 ![] bcast_S_S100000x40 : (⟨S_, .f32⟩ : BufTy).Contents (Elt F) → (⟨S100000x40, .f32⟩ : BufTy).Contents (Elt F)),
    unary main_v51 main_v88 (broadcastInDim S3300000x1 ![0] bcast_S3300000_S3300000x1_0 : (⟨S3300000, .i32⟩ : BufTy).Contents (Elt F) → (⟨S3300000x1, .i32⟩ : BufTy).Contents (Elt F)),
    ternary main_v87 main_v88 main_v86 main_v89 ((fun x i u => Host.scatterAdd scatter_S100000x40_S3300000x1_S3300000x40_1_0_0_1 x i u) : (⟨S100000x40, .f32⟩ : BufTy).Contents (Elt F) → (⟨S3300000x1, .i32⟩ : BufTy).Contents (Elt F) → (⟨S3300000x40, .f32⟩ : BufTy).Contents (Elt F) → (⟨S100000x40, .f32⟩ : BufTy).Contents (Elt F)),
    unary main_arg5 main_v90 (broadcastInDim S1x40 ![1] bcast_S40_S1x40_1 : (⟨S40, .f32⟩ : BufTy).Contents (Elt F) → (⟨S1x40, .f32⟩ : BufTy).Contents (Elt F)),
    unary main_v90 main_v91 (broadcastInDim S100000x40 ![0, 1] bcast_S1x40_S100000x40_0_1 : (⟨S1x40, .f32⟩ : BufTy).Contents (Elt F) → (⟨S100000x40, .f32⟩ : BufTy).Contents (Elt F)),
    binary main_v89 main_v91 main_v92 (addf : (⟨S100000x40, .f32⟩ : BufTy).Contents (Elt F) → (⟨S100000x40, .f32⟩ : BufTy).Contents (Elt F) → (⟨S100000x40, .f32⟩ : BufTy).Contents (Elt F)),
    TRef.nullary (TRef.of (T := ⟨S_, .f32⟩) main_call3_cst) (constant S_ .f32 0xFF800000#32),
    TRef.binary (TRef.of (T := ⟨S100000x40, .f32⟩) main_v92) (TRef.of (T := ⟨S_, .f32⟩) main_call3_cst) (TRef.of (T := ⟨S100000, .f32⟩) main_call3_v0) (fun x v => Host.reduce FloatOps.maximumf x v reducesTo_S100000x40_S100000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf,
    TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x40, .f32⟩) main_call3_v4) (broadcastInDim S100000x40 ![0, 1] bcast_S100000x1_S100000x40_0_1),
    TRef.binary (TRef.of (T := ⟨S100000x40, .f32⟩) main_v92) (TRef.of (T := ⟨S100000x40, .f32⟩) main_call3_v4) (TRef.of (T := ⟨S100000x40, .f32⟩) main_call3_v5) subf,
    TRef.unary (TRef.of (T := ⟨S100000x40, .f32⟩) main_call3_v5) (TRef.of (T := ⟨S100000x40, .f32⟩) main_call3_v6) Host.exp,
    TRef.nullary (TRef.of (T := ⟨S_, .f32⟩) main_call3_cst_1) (constant S_ .f32 0x00000000#32),
    TRef.binary (TRef.of (T := ⟨S100000x40, .f32⟩) main_call3_v6) (TRef.of (T := ⟨S_, .f32⟩) main_call3_cst_1) (TRef.of (T := ⟨S100000, .f32⟩) main_call3_v7) (fun x v => Host.reduceAdd x v reducesTo_S100000x40_S100000_d1 h_S_),
    TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x40, .f32⟩) main_call3_v10) (broadcastInDim S100000x40 ![0, 1] bcast_S100000x1_S100000x40_0_1),
    TRef.binary (TRef.of (T := ⟨S100000x40, .f32⟩) main_call3_v5) (TRef.of (T := ⟨S100000x40, .f32⟩) main_call3_v10) (TRef.of (T := ⟨S100000x40, .f32⟩) main_v93) subf ]

/-- The program's operations are the four stretches in order. -/
theorem ops_cut : (ops : List (HloOp τ sig (Elt F))) = opsA ++ (opsB ++ (opsC ++ opsD)) := rfl

/-- No operation allocates a buffer. -/
theorem ops_fresh : (ops : List (HloOp τ sig (Elt F))).Forall fun op => op.fresh = ∅ := by
  simp only [List.Forall]; repeat' constructor

variable (V : Valuation τ sig (Elt F))

/-! ## The first stretch: the two rows of the edge list, the extended lists, the weights -/

theorem A_v1 : after opsA V (Proc.devRef .tc main_v1) = Cert.Gcn.row0 (V (Proc.devRef .tc main_arg1)) := by
  after_results_simp <;> (try simp only [ofBuf_toBuf]) <;> rfl
theorem A_v3 : after opsA V (Proc.devRef .tc main_v3) = Cert.Gcn.row1 (V (Proc.devRef .tc main_arg1)) := by
  after_results_simp <;> (try simp only [ofBuf_toBuf]) <;> rfl
theorem A_v5 : after opsA V (Proc.devRef .tc main_v5) = Cert.Gcn.srcs (V (Proc.devRef .tc main_arg1)) := by
  after_results_simp <;> (try simp only [ofBuf_toBuf]) <;> rfl
theorem A_v6 : after opsA V (Proc.devRef .tc main_v6) = Cert.Gcn.dsts (V (Proc.devRef .tc main_arg1)) := by
  after_results_simp <;> (try simp only [ofBuf_toBuf]) <;> rfl
theorem A_v30 : after opsA V (Proc.devRef .tc main_v30) = Cert.Gcn.norm (V (Proc.devRef .tc main_arg1)) := by
  after_results_simp <;> (try simp only [ofBuf_toBuf]) <;> rfl
theorem A_arg0 : after opsA V (Proc.devRef .tc main_arg0) = V (Proc.devRef .tc main_arg0) := by after_results_simp
theorem A_arg1 : after opsA V (Proc.devRef .tc main_arg1) = V (Proc.devRef .tc main_arg1) := by after_results_simp
theorem A_arg2 : after opsA V (Proc.devRef .tc main_arg2) = V (Proc.devRef .tc main_arg2) := by after_results_simp
theorem A_arg3 : after opsA V (Proc.devRef .tc main_arg3) = V (Proc.devRef .tc main_arg3) := by after_results_simp
theorem A_arg4 : after opsA V (Proc.devRef .tc main_arg4) = V (Proc.devRef .tc main_arg4) := by after_results_simp
theorem A_arg5 : after opsA V (Proc.devRef .tc main_arg5) = V (Proc.devRef .tc main_arg5) := by after_results_simp

/-! ## The second stretch: the first layer -/

theorem B_v48 : after opsB V (Proc.devRef .tc main_v48)
    = Cert.Gcn.act1 (Cert.Gcn.prop16 (V (Proc.devRef .tc main_v30)) (V (Proc.devRef .tc main_v5)) (V (Proc.devRef .tc main_v6))
        (Cert.Gcn.lin1 (V (Proc.devRef .tc main_arg0)) (V (Proc.devRef .tc main_arg2)))) (Cert.Gcn.row16 (V (Proc.devRef .tc main_arg3))) := by
  after_results_simp <;> (try simp only [ofBuf_toBuf]) <;> rfl
theorem B_v1 : after opsB V (Proc.devRef .tc main_v1) = V (Proc.devRef .tc main_v1) := by after_results_simp
theorem B_v3 : after opsB V (Proc.devRef .tc main_v3) = V (Proc.devRef .tc main_v3) := by after_results_simp
theorem B_arg0 : after opsB V (Proc.devRef .tc main_arg0) = V (Proc.devRef .tc main_arg0) := by after_results_simp
theorem B_arg1 : after opsB V (Proc.devRef .tc main_arg1) = V (Proc.devRef .tc main_arg1) := by after_results_simp
theorem B_arg2 : after opsB V (Proc.devRef .tc main_arg2) = V (Proc.devRef .tc main_arg2) := by after_results_simp
theorem B_arg3 : after opsB V (Proc.devRef .tc main_arg3) = V (Proc.devRef .tc main_arg3) := by after_results_simp
theorem B_arg4 : after opsB V (Proc.devRef .tc main_arg4) = V (Proc.devRef .tc main_arg4) := by after_results_simp
theorem B_arg5 : after opsB V (Proc.devRef .tc main_arg5) = V (Proc.devRef .tc main_arg5) := by after_results_simp

/-! ## The third stretch: the extended lists and the weights again -/

theorem C_v50 : after opsC V (Proc.devRef .tc main_v50) = Cert.Gcn.withLoops (V (Proc.devRef .tc main_v1)) := by
  after_results_simp <;> (try simp only [ofBuf_toBuf]) <;> rfl
theorem C_v51 : after opsC V (Proc.devRef .tc main_v51) = Cert.Gcn.withLoops (V (Proc.devRef .tc main_v3)) := by
  after_results_simp <;> (try simp only [ofBuf_toBuf]) <;> rfl
theorem C_v75 : after opsC V (Proc.devRef .tc main_v75)
    = Cert.Gcn.normOf (Cert.Gcn.withLoops (V (Proc.devRef .tc main_v1))) (Cert.Gcn.withLoops (V (Proc.devRef .tc main_v3))) := by
  after_results_simp <;> (try simp only [ofBuf_toBuf]) <;> rfl
theorem C_v48 : after opsC V (Proc.devRef .tc main_v48) = V (Proc.devRef .tc main_v48) := by after_results_simp
theorem C_arg0 : after opsC V (Proc.devRef .tc main_arg0) = V (Proc.devRef .tc main_arg0) := by after_results_simp
theorem C_arg1 : after opsC V (Proc.devRef .tc main_arg1) = V (Proc.devRef .tc main_arg1) := by after_results_simp
theorem C_arg2 : after opsC V (Proc.devRef .tc main_arg2) = V (Proc.devRef .tc main_arg2) := by after_results_simp
theorem C_arg3 : after opsC V (Proc.devRef .tc main_arg3) = V (Proc.devRef .tc main_arg3) := by after_results_simp
theorem C_arg4 : after opsC V (Proc.devRef .tc main_arg4) = V (Proc.devRef .tc main_arg4) := by after_results_simp
theorem C_arg5 : after opsC V (Proc.devRef .tc main_arg5) = V (Proc.devRef .tc main_arg5) := by after_results_simp

/-! ## The fourth stretch: the second layer and the log-softmax -/

theorem D_v93 : after opsD V (Proc.devRef .tc main_v93)
    = Cert.Gcn.lsm (Cert.Gcn.prop40 (V (Proc.devRef .tc main_v75)) (V (Proc.devRef .tc main_v50)) (V (Proc.devRef .tc main_v51))
        (Cert.Gcn.lin2 (V (Proc.devRef .tc main_v48)) (V (Proc.devRef .tc main_arg4)))) (Cert.Gcn.row40 (V (Proc.devRef .tc main_arg5))) := by
  after_results_simp <;> (try simp only [ofBuf_toBuf]) <;> rfl
theorem D_arg0 : after opsD V (Proc.devRef .tc main_arg0) = V (Proc.devRef .tc main_arg0) := by after_results_simp
theorem D_arg1 : after opsD V (Proc.devRef .tc main_arg1) = V (Proc.devRef .tc main_arg1) := by after_results_simp
theorem D_arg2 : after opsD V (Proc.devRef .tc main_arg2) = V (Proc.devRef .tc main_arg2) := by after_results_simp
theorem D_arg3 : after opsD V (Proc.devRef .tc main_arg3) = V (Proc.devRef .tc main_arg3) := by after_results_simp
theorem D_arg4 : after opsD V (Proc.devRef .tc main_arg4) = V (Proc.devRef .tc main_arg4) := by after_results_simp
theorem D_arg5 : after opsD V (Proc.devRef .tc main_arg5) = V (Proc.devRef .tc main_arg5) := by after_results_simp

/-! ## The run -/

variable (m : (ℓ : Loc nD τ sig) → Buf (Elt F) ℓ) (ρ : Dev nD → PrngReg)

/-- The result buffer after the 132 operations, from the launch contents: the network of the six arguments. The second
    computation of the edge weights reads the same two rows of the edge list as the first, so it is the same array. -/
theorem value (c : Dev nD) : after ops (launchContents m c) (Proc.devRef .tc main_v93)
    = Cert.Gcn.gcn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  show after (opsA ++ (opsB ++ (opsC ++ opsD))) _ _ = _
  rw [after_append, after_append, after_append, D_v93, C_v75, C_v50, C_v51, C_v48, C_arg4, C_arg5, B_v1, B_v3, B_v48, B_arg4, B_arg5,
    A_v1, A_v3, A_v30, A_v5, A_v6, A_arg0, A_arg2, A_arg3, A_arg4, A_arg5]
  unfold Cert.Gcn.gcn Cert.Gcn.agg40 Cert.Gcn.agg16 Cert.Gcn.norm Cert.Gcn.srcs Cert.Gcn.dsts
  rfl

/-- No operation writes this argument. -/
theorem kept_arg0 (c : Dev nD) : after ops (launchContents m c) (Proc.devRef .tc main_arg0) = m ((c.tc : Thread nD τ).loc main_arg0) := by
  show after (opsA ++ (opsB ++ (opsC ++ opsD))) _ _ = _
  rw [after_append, after_append, after_append, D_arg0, C_arg0, B_arg0, A_arg0]
/-- No operation writes this argument. -/
theorem kept_arg1 (c : Dev nD) : after ops (launchContents m c) (Proc.devRef .tc main_arg1) = m ((c.tc : Thread nD τ).loc main_arg1) := by
  show after (opsA ++ (opsB ++ (opsC ++ opsD))) _ _ = _
  rw [after_append, after_append, after_append, D_arg1, C_arg1, B_arg1, A_arg1]
/-- No operation writes this argument. -/
theorem kept_arg2 (c : Dev nD) : after ops (launchContents m c) (Proc.devRef .tc main_arg2) = m ((c.tc : Thread nD τ).loc main_arg2) := by
  show after (opsA ++ (opsB ++ (opsC ++ opsD))) _ _ = _
  rw [after_append, after_append, after_append, D_arg2, C_arg2, B_arg2, A_arg2]
/-- No operation writes this argument. -/
theorem kept_arg3 (c : Dev nD) : after ops (launchContents m c) (Proc.devRef .tc main_arg3) = m ((c.tc : Thread nD τ).loc main_arg3) := by
  show after (opsA ++ (opsB ++ (opsC ++ opsD))) _ _ = _
  rw [after_append, after_append, after_append, D_arg3, C_arg3, B_arg3, A_arg3]
/-- No operation writes this argument. -/
theorem kept_arg4 (c : Dev nD) : after ops (launchContents m c) (Proc.devRef .tc main_arg4) = m ((c.tc : Thread nD τ).loc main_arg4) := by
  show after (opsA ++ (opsB ++ (opsC ++ opsD))) _ _ = _
  rw [after_append, after_append, after_append, D_arg4, C_arg4, B_arg4, A_arg4]
/-- No operation writes this argument. -/
theorem kept_arg5 (c : Dev nD) : after ops (launchContents m c) (Proc.devRef .tc main_arg5) = m ((c.tc : Thread nD τ).loc main_arg5) := by
  show after (opsA ++ (opsB ++ (opsC ++ opsD))) _ _ = _
  rw [after_append, after_append, after_append, D_arg5, C_arg5, B_arg5, A_arg5]

/-- On every device, from any memory with zero counters: every weakly fair execution of the host program terminates
    with the result buffer at the network of the arguments and the arguments unchanged. -/
theorem run : θ_run defs (onTc (τ := τ) (main (F := F))) ⟨m, fun _ => 0, ρ⟩ fun r => ∀ c : Dev nD,
      r.2.mem ((c.tc : Thread nD τ).loc main_v93)
        = Cert.Gcn.gcn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v93).trans (value m c),
      (h c main_arg0).trans (kept_arg0 m c),
      (h c main_arg1).trans (kept_arg1 m c),
      (h c main_arg2).trans (kept_arg2 m c),
      (h c main_arg3).trans (kept_arg3 m c),
      (h c main_arg4).trans (kept_arg4 m c),
      (h c main_arg5).trans (kept_arg5 m c)⟩)
    (run_seq scopedRefs_eq scopedSems_eq defs main (fun _ => ops) main_eq (fun _ => ops_sub) m ρ
      (hfresh := fun _ => List.forall_iff_forall_mem.mp ops_fresh))

end Cert.ReferenceIdeal.Staged

end
-- ==== Proof.lean ====
/-
  A two-layer graph convolution with symmetric degree normalisation, a Pallas kernel program against its jnp reference,
  equal over the extended reals.

  Both programs compute `log_softmax (agg (relu (agg (x · W1) + b1) · W2) + b2)` row by row, where `agg h` sends row `d`
  to the sum, over the edges arriving at `d` (every node has a self-loop), of `norm e · h (src e)` with
  `norm e = deg (src e)^(-1/2) · deg (dst e)^(-1/2)`. The edge list, the degrees, the weights, the gathers and the
  scatter-additions are the same host operations in both programs, applied to the same arrays; so they are carried as
  whole-array functions and never opened, and whatever they do with an out-of-range node index they do it twice. What differs
  is where the dense arithmetic runs. The kernel program runs the two products, the bias-and-clamp and the
  bias-and-log-softmax as pipelined regions over 50 blocks of 2000 rows; each of these acts on a row from that row alone
  (a product entry is the sum over `k` of `x (r, k) · w (k, j)`; a row's maximum and its sum of exponentials read only that
  row), so the 50 blocks together are the host's operation on the whole array. At the ideal values a product into a zero
  accumulator and the host's product are the same sum, a lane reduction and the host's reduction the same maximum and the
  same sum, and the reference's extra `max (-∞, ·)` in its log-softmax is the identity. The reference computes the edge
  weights once per layer, the kernel program once; they are the same function of the same two rows of the edge list.
  No law used needs the inputs to be finite: the precondition is never opened.
  `preserves` has no entry: the idealized kernel program is the kernel program's own text read at the ideal values.
-/
import proofs.«139665_j74002286510429_1_alg».proof.Defs
import proofs.«139665_j74002286510429_1_alg».proof.Proof.Gen.Kernel
import proofs.«139665_j74002286510429_1_alg».proof.Proof.Gen.Kernel.Frame
import proofs.«139665_j74002286510429_1_alg».proof.Proof.Gen.KernelIdeal
import proofs.«139665_j74002286510429_1_alg».proof.Proof.Gen.KernelIdeal.Frame
import proofs.«139665_j74002286510429_1_alg».proof.Proof.Gen.ReferenceIdeal
import proofs.«139665_j74002286510429_1_alg».proof.Proof.Gen.Pre_finite_inputs
import proofs.«139665_j74002286510429_1_alg».proof.Proof.KernelRun
import proofs.«139665_j74002286510429_1_alg».proof.Proof.KernelValue
import proofs.«139665_j74002286510429_1_alg».proof.Proof.RefValue
import Idealize.ShloMosaic.Adequacy
import Idealize.ShloMosaic.Init

noncomputable section

namespace Cert.Proof

open Idealize.ShloMosaic Idealize.SL.Sem

/-- The kernel program runs and leaves its arguments alone, at the machine's words and at the ideal values. -/
theorem frame_kernel : Cert.frame_Kernel := fun m ρ _ => Cert.Kernel.Gen.frame m ρ
theorem frame_kernelIdeal : Cert.frame_KernelIdeal := fun m ρ _ => Cert.KernelIdeal.Gen.frame m ρ

/-- The host program runs and leaves its arguments alone: its run with the result dropped. -/
theorem frame_reference : Cert.frame_ReferenceIdeal := fun m ρ _ =>
  (θ_run Cert.ReferenceIdeal.defs _ _).mono (fun _ h c => (h c).2) (Cert.ReferenceIdeal.Staged.run (F := Ideal) m ρ)

/-- From memories that agree on the six arguments both programs end with the result buffer at the network of the arguments. -/
theorem algebraic : Cert.algebraic_KernelIdeal_ReferenceIdeal := by
  intro m ρ m' ρ' _ hagree
  refine ⟨fun c => Cert.Gcn.gcn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.ValueK.result m ρ c), (h c).2⟩)
      (Cert.KernelIdeal.GenRun.run_main (F := Ideal) m ρ)
  · refine (θ_run Cert.ReferenceIdeal.defs _ _).mono (fun _ h c => ⟨(h c).1.trans ?_, (h c).2⟩)
      (Cert.ReferenceIdeal.Staged.run (F := Ideal) m' ρ')
    obtain ⟨e0, e1, e2, e3, e4, e5⟩ := hagree c
    rw [e0, e1, e2, e3, e4, e5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
